-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S128x4096 : Shape := ⟨2, ![128, 4096]⟩
abbrev S1x1 : Shape := ⟨2, ![1, 1]⟩
abbrev S256x16384 : Shape := ⟨2, ![256, 16384]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 7
  | .vmem => 14
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .f32⟩
  | .hbm, ⟨3, _⟩ => ⟨S4096x16384, .f32⟩
  | .hbm, ⟨4, _⟩ => ⟨S4096x16384, .f32⟩
  | .hbm, ⟨5, _⟩ => ⟨S1x1, .f32⟩
  | .hbm, ⟨6, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S256x16384, .f32⟩
  | .local _ .vmem, ⟨11, _⟩ => ⟨S256x16384, .f32⟩
  | .local _ .vmem, ⟨12, _⟩ => ⟨S1x1, .f32⟩
  | .local _ .vmem, ⟨13, _⟩ => ⟨S1x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_7 : BitVec 32 := 0#32
  let v15 : BitVec 1 := Scalar.cmpi .ne v14 c0_i32_7
  v15

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S128x4096_S128x4096_0_0 : ∀ a, (![0, 0] : Fin 2 → Nat) a + S128x4096.size a ≤ S128x4096.size a
  h_S128x4096 : 0 < S128x4096.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x16384_S256x16384_0_0 : ∀ a, (![0, 0] : Fin 2 → Nat) a + S256x16384.size a ≤ S256x16384.size a
  h_S256x16384 : 0 < S256x16384.numel
  reduces_S256x16384_S256 : S256x16384.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x16384.size a
  hwx0_0 : ∀ i : grid0.Coords, EltTy.bits .f32 = 32 ∨ (Rect.block (s := S4096x16384) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x16384.size a
  hwx0_1 : ∀ i : grid0.Coords, EltTy.bits .f32 = 32 ∨ (Rect.block (s := S4096x16384) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x16384.size a
  hwx0_2 : ∀ i : grid0.Coords, EltTy.bits .f32 = 32 ∨ (Rect.block (s := S4096x16384) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x16384.size a
  hwx0_3 : ∀ i : grid0.Coords, EltTy.bits .f32 = 32 ∨ (Rect.block (s := S4096x16384) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x16384.size a
  hwx0_4 : ∀ i : grid0.Coords, EltTy.bits .f32 = 32 ∨ (Rect.block (s := S4096x16384) S128x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x16384.size a ≤ S4096x16384.size a
  hwx1_0 : ∀ i : grid1.Coords, EltTy.bits .f32 = 32 ∨ (Rect.block (s := S4096x16384) S256x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S128x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S128x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S128x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S256x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S4096x16384 : Shape := ⟨2, ![4096, 16384]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S4096x16384, .f32⟩
  | .hbm, ⟨3, _⟩ => ⟨S4096x16384, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S4096x16384, .f32⟩
  | .hbm, ⟨12, _⟩ => ⟨S4096x16384, .f32⟩
  | .hbm, ⟨13, _⟩ => ⟨S_, .f32⟩
  | .hbm, ⟨14, _⟩ => ⟨S_, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts₀]

class Facts : Prop extends Facts₀ where

variable [Facts]
-- ==== Proof.K.Elementwise.lean ====
/-
  The first kernel region: the elementwise kernel on a 32 × 4 grid of 128 × 4096 blocks. At each grid point the body
  loads the input block once and stores into each of the four output blocks one pointwise function of it
  (x + 1, x − 1, x · 2, x / 2), every store covering its whole block. Stated at a parameter `V`, the contents of
  the core's buffers when the region is entered: what each output's staging buffer holds after the body, the body's
  triple, the proof data of the pipeline and its body obligation at every grid point. Generic in the float instance.
-/
import proofs.«111182_j73667279061061_1_alg».proof.Proof.Gen.Kernel.Launch
import proofs.«111182_j73667279061061_1_alg».proof.Proof.Gen.Kernel.Skeleton
import proofs.«111182_j73667279061061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Elementwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point and never cut, so its current staging buffer holds the array's block
    at that point, for any proof data whose input array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every load and store of the body goes through: the whole 128 × 4096 block. -/
abbrev whole0 : Rect S128x4096 := Rect.unit (s := S128x4096) ![0, 0] S128x4096.size inb_S128x4096_S128x4096_0_0

/-- What the body leaves in output window 1's staging buffer, from the input block: its one store read back. -/
def out0_1 (x0 : Vec F S128x4096 .f32) : Vec F S128x4096 .f32 :=
  View.canon [⟨whole0, k0_pay1 (View.ld x0 whole0)⟩]

/-- What the body leaves in output window 2's staging buffer, from the input block: its one store read back. -/
def out0_2 (x0 : Vec F S128x4096 .f32) : Vec F S128x4096 .f32 :=
  View.canon [⟨whole0, k0_pay2 (View.ld x0 whole0)⟩]

/-- What the body leaves in output window 3's staging buffer, from the input block: its one store read back. -/
def out0_3 (x0 : Vec F S128x4096 .f32) : Vec F S128x4096 .f32 :=
  View.canon [⟨whole0, k0_pay3 (View.ld x0 whole0)⟩]

/-- What the body leaves in output window 4's staging buffer, from the input block: its one store read back. -/
def out0_4 (x0 : Vec F S128x4096 .f32) : Vec F S128x4096 .f32 :=
  View.canon [⟨whole0, k0_pay4 (View.ld x0 whole0)⟩]

/-- A single store through the whole-block rectangle covers the block. -/
theorem cover0 (p0 : Vec F S128x4096 .f32) (y : S128x4096.Idx) :
    ∃ pc ∈ ([⟨whole0, p0⟩] : List (View.Piece (Elt F) S128x4096 .f32)), y ∈ pc.1.set :=
  View.cover_of_tiled [⟨whole0, p0⟩] S128x4096.size (by rfl) y

set_option maxHeartbeats 4000000 in
/-- The body on whole staging memrefs: with the input's buffer at `x0` and the four outputs' at anything, it runs to
    the continuation with the input's buffer unchanged and each output's at its pointwise function of `x0`. -/
theorem sound_kernel0 (c : Dev nD) (E : Set ℕ) (i : grid0.Coords)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x4096 .f32) (harg5 : arg5.IsWhole)
    (arg6 : Memref sig .tc .vmem S128x4096 .f32) (harg6 : arg6.IsWhole)
    (x0 : Vec F S128x4096 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (out0_1 x0) ∗ owns (c : Thread nD τ) arg4 fullShare (out0_2 x0)
            ∗ owns (c : Thread nD τ) arg5 fullShare (out0_3 x0) ∗ owns (c : Thread nD τ) arg6 fullShare (out0_4 x0)) -∗ K ⟨⟩))
      ⊢ wp frame (wpE (defs₀ (F := F)) Variants.none c none) E (cc0__elementwise_kernel i arg2 harg2 arg3 harg3 arg4 harg4 arg5 harg5 arg6 harg6) K := by
  simp only [cc0__elementwise_kernel_eq_skeleton]; unfold cc0__elementwise_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of the elementwise pipeline on core `c`: the arrays as the region finds them; after the body at point
    `t` the input's buffer still at its block and each output's at its function of that block; the invariant is the
    scoped buffers the region does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input's memref holds its block, so the body's triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Elementwise

end
-- ==== Proof.K.SumAllDefs.lean ====
/-
  The second kernel region: the full-tensor sum on a grid of 16 points, one 256 × 16384 row block of the input per
  point. A 1 × 1 scratch accumulator is carried between the points: the first point resets it to zero, every point
  adds its block's sum (the lanes of each row first, then the 256 row sums) into it, and the last point copies it into
  the 1 × 1 output block, which is written back once, at the end. Stated at a parameter `V`, the contents of the core's
  buffers when the region is entered: the accumulator after each point by recursion on the point, the region's
  invariant carrying it, the proof data of the pipeline and its body obligation. Generic in the float instance.
-/
import proofs.«111182_j73667279061061_1_alg».proof.Proof.Gen.Kernel.Launch
import proofs.«111182_j73667279061061_1_alg».proof.Proof.Gen.Kernel.Skeleton
import proofs.«111182_j73667279061061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SumAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window is fetched at every point and never cut, so its current staging buffer holds the array's row block
    at that point, for any proof data whose input array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scratch accumulator, a whole 1 × 1 buffer of the core's vector memory. -/
abbrev accM : Memref sig .tc .vmem S1x1 .f32 := Memref.whole cc1_scratch0

/-- THE ACCUMULATION. What the scratch accumulator holds after the body at position `n`: at the first point the block's
    sum added to the zero just stored, afterwards the block's sum added to what the point before left. -/
def acc1 (c : Dev nD) : (n : ℕ) → n < cfg1.N → Vec F S1x1 .f32
  | 0, hn => k1_pay2 (iblk1 V c 0 ⟨0, hn⟩) (k1_pay1 (F := F))
  | n + 1, hn => k1_pay2 (iblk1 V c 0 ⟨n + 1, hn⟩) (acc1 c n (Nat.lt_of_succ_lt hn))

theorem acc1_zero (c : Dev nD) (hn : 0 < cfg1.N) : acc1 V c 0 hn = k1_pay2 (iblk1 V c 0 ⟨0, hn⟩) (k1_pay1 (F := F)) := rfl
theorem acc1_succ (c : Dev nD) (n : ℕ) (hn : n + 1 < cfg1.N) :
    acc1 V c (n + 1) hn = k1_pay2 (iblk1 V c 0 ⟨n + 1, hn⟩) (acc1 V c n (Nat.lt_of_succ_lt hn)) := rfl

/-- The staging buffers of the OTHER region's windows: scoped buffers this region never touches, each whole at some
    contents. They ride in the region's invariant beside the accumulator. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region's invariant before position `n`: before the first point whatever the launch hands the region (every
    scoped buffer it does not stage at anything, the generator register at some state); afterwards the same with the
    accumulator at what the point before left in it. -/
def PhiS1 (c : Dev nD) : (n : ℕ) → n ≤ cfg1.N → sProp 𝕄
  | 0, _ => Pipeline.ΦA spec1 c
  | n + 1, hn => iprop(others1 (F := F) c ∗ owns (c : Thread nD τ) accM fullShare (acc1 V c n hn) ∗ (∃ r, prngReg c r))

/-- The proof data of the sum pipeline on core `c`: the arrays as the region finds them; after the body at point `t` the
    input's buffer still at its row block and the output's at the accumulator after `t` (read only at the last point,
    the one point that stores into the output and writes it back); the invariant carries the accumulator; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d

end Cert.Kernel.SumAll

end
-- ==== Proof.K.SumAll.lean ====
/-
  The sum region's body, case by case, and its obligation at every grid point. The body's two branches depend only on
  the grid coordinate: the first (reset the accumulator) is taken at the first point only, the second (copy the
  accumulator into the output block) at the last point only. So a point is in one of three cases: the first point, a
  middle point, the last point. In each the accumulator ends at the block's sum added to what it held (at the first
  point: to the zero just stored), and at the last point the output block ends at the same value.
-/
import proofs.«111182_j73667279061061_1_alg».proof.Proof.K.SumAllDefs
import Idealize.ShloMosaic.Lib.Pipeline.Value

set_option maxRecDepth 16384

noncomputable section

namespace Cert.Kernel.SumAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The branch conditions, decided over the grid -/

/-- The first branch's condition (the grid coordinate is zero), as the body computes it. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition (the grid coordinate is the last one). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The input window is never idle; the output window is idle, and not written back, exactly where the second branch is
    not taken. -/
theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

/-! ## Whole-block accesses -/

theorem hz2 : (![0, 0] : Fin 2 → ℕ) = fun _ => 0 := by funext a; fin_cases a <;> rfl

/-- A rectangle at offset zero of the shape's own size holds every index. -/
theorem mem_unit_zero {S : Shape} {off : Fin S.rank → ℕ} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- The one rectangle every access of the accumulator and of the output block goes through: the whole 1 × 1 block. -/
abbrev whole1 : Rect S1x1 := Rect.unit (s := S1x1) ![0, 0] S1x1.size inb_S1x1_S1x1_0_0

/-- A list of stores whose last is through the whole block covers the block. -/
theorem cover1 (p0 : Vec F S1x1 .f32) (L : List (View.Piece (Elt F) S1x1 .f32)) (y : S1x1.Idx) :
    ∃ pc ∈ ((⟨whole1, p0⟩ : View.Piece (Elt F) S1x1 .f32) :: L), y ∈ pc.1.set :=
  ⟨_, List.mem_cons_self, mem_unit_zero hz2 inb_S1x1_S1x1_0_0 y⟩

/-! ## The body's triple, case by case -/

set_option maxHeartbeats 4000000 in
/-- THE FIRST POINT (first branch taken, second not): the accumulator, found at anything, is reset to zero and ends at the
    block's sum added to that zero; the output block is handed back as found. -/
theorem run_first (c : Dev nD) (E : Set ℕ) (i : grid1.Coords) (arg1 : Memref sig .tc .vmem S256x16384 .f32) (harg1 : arg1.IsWhole)
    (arg2 : Memref sig .tc .vmem S1x1 .f32) (harg2 : arg2.IsWhole) (arg3 : Memref sig .tc .vmem S1x1 .f32) (harg3 : arg3.IsWhole)
    (hc0 : cond1_0 i) (hc1 : ¬cond1_1 i)
    (x0 : Vec F S256x16384 .f32) (xi : Vec F S1x1 .f32) (K : PUnit → sProp 𝕄) :
    iprop(owns (c : Thread nD τ) arg1 fullShare x0 ∗ owns (c : Thread nD τ) arg2 fullShare xi ∗ (∃ d, owns (c : Thread nD τ) arg3 fullShare d)
        ∗ (iprop(owns (c : Thread nD τ) arg1 fullShare x0 ∗ owns (c : Thread nD τ) arg2 fullShare xi ∗ owns (c : Thread nD τ) arg3 fullShare (k1_pay2 x0 (k1_pay1 (F := F)))) -∗ K ⟨⟩))
      ⊢ wp frame (wpE (defs₀ (F := F)) Variants.none c none) E (cc1__sum_kernel i arg1 harg1 arg2 harg2 arg3 harg3) K := by
  simp only [cc1__sum_kernel_eq_skeleton]; unfold cc1__sum_kernel_skel
  unfold owns
  iintro ⟨⟨%f0, %hf0, H0⟩, ⟨%f1, %hf1, H1⟩, ⟨%ds, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  sl_unfold_words
  rw [View.read_writes_eq_canon _ _ _ (cover1 _ _)]
  rw [View.canon_cons_unit_zero (S := S1x1) hz2]
  simp only [View.readAt_eq_ld, harg1.read_unread, View.ld_unit_zero (S := S256x16384) hz2, View.readCov_unit_zero (S := S1x1) _ hz2]

set_option maxHeartbeats 4000000 in
/-- A MIDDLE POINT (neither branch taken): the accumulator, found at `xs`, ends at the block's sum added to `xs`; the output
    block is handed back as found. -/
theorem run_middle (c : Dev nD) (E : Set ℕ) (i : grid1.Coords) (arg1 : Memref sig .tc .vmem S256x16384 .f32) (harg1 : arg1.IsWhole)
    (arg2 : Memref sig .tc .vmem S1x1 .f32) (harg2 : arg2.IsWhole) (arg3 : Memref sig .tc .vmem S1x1 .f32) (harg3 : arg3.IsWhole)
    (hc0 : ¬cond1_0 i) (hc1 : ¬cond1_1 i)
    (x0 : Vec F S256x16384 .f32) (xi : Vec F S1x1 .f32) (xs : Vec F S1x1 .f32) (K : PUnit → sProp 𝕄) :
    iprop(owns (c : Thread nD τ) arg1 fullShare x0 ∗ owns (c : Thread nD τ) arg2 fullShare xi ∗ owns (c : Thread nD τ) arg3 fullShare xs
        ∗ (iprop(owns (c : Thread nD τ) arg1 fullShare x0 ∗ owns (c : Thread nD τ) arg2 fullShare xi ∗ owns (c : Thread nD τ) arg3 fullShare (k1_pay2 x0 xs)) -∗ K ⟨⟩))
      ⊢ wp frame (wpE (defs₀ (F := F)) Variants.none c none) E (cc1__sum_kernel i arg1 harg1 arg2 harg2 arg3 harg3) K := by
  simp only [cc1__sum_kernel_eq_skeleton]; unfold cc1__sum_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  sl_unfold_words
  rw [View.read_writes_eq_canon _ _ _ (cover1 _ _)]
  rw [View.canon_cons_unit_zero (S := S1x1) hz2]
  simp only [View.readAt_eq_ld, harg1.read_unread, harg3.read_unread, View.ld_unit_zero (S := S256x16384) hz2, View.ld_unit_zero (S := S1x1) hz2]

set_option maxHeartbeats 4000000 in
/-- THE LAST POINT (second branch taken, first not): the accumulator, found at `xs`, ends at the block's sum added to `xs`, and
    the output block, found at anything, ends at the same value. -/
theorem run_last (c : Dev nD) (E : Set ℕ) (i : grid1.Coords) (arg1 : Memref sig .tc .vmem S256x16384 .f32) (harg1 : arg1.IsWhole)
    (arg2 : Memref sig .tc .vmem S1x1 .f32) (harg2 : arg2.IsWhole) (arg3 : Memref sig .tc .vmem S1x1 .f32) (harg3 : arg3.IsWhole)
    (hc0 : ¬cond1_0 i) (hc1 : cond1_1 i)
    (x0 : Vec F S256x16384 .f32) (xs : Vec F S1x1 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k1_pay2 x0 xs) ∗ owns (c : Thread nD τ) arg3 fullShare (k1_pay2 x0 xs)) -∗ K ⟨⟩))
      ⊢ wp frame (wpE (defs₀ (F := F)) Variants.none c none) E (cc1__sum_kernel i arg1 harg1 arg2 harg2 arg3 harg3) K := by
  simp only [cc1__sum_kernel_eq_skeleton]; unfold cc1__sum_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (cover1 _ _)]
    rw [View.canon_cons_unit_zero (S := S1x1) hz2]
    simp only [View.readAt_eq_ld, harg1.read_unread, harg3.read_unread, View.ld_unit_zero (S := S256x16384) hz2, View.ld_unit_zero (S := S1x1) hz2, View.readCov_unit_zero (S := S1x1) _ hz2]
  iexists _; isplitr
  swap; · iexact HS0
  ipureintro
  sl_unfold_words
  rw [View.read_writes_eq_canon _ _ _ (cover1 _ _)]
  rw [View.canon_cons_unit_zero (S := S1x1) hz2]
  simp only [View.readAt_eq_ld, harg1.read_unread, harg3.read_unread, View.ld_unit_zero (S := S256x16384) hz2, View.ld_unit_zero (S := S1x1) hz2]

/-! ## The invariant and the accumulator, point by point -/

variable (V : (c : Dev nD) → (b : Ref sig .tc) → Buf (Elt F) ((c : Thread nD τ).loc b))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) accM fullShare (acc1 V c n hn) ∗ (∃ r, prngReg c r)) := rfl

theorem PhiS1_pos (c : Dev nD) (n : ℕ) (h : n ≤ cfg1.N) (hz : n ≠ 0) :
    PhiS1 V c n h = iprop(others1 (F := F) c ∗ owns (c : Thread nD τ) accM fullShare (acc1 V c (n - 1) (by omega)) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The accumulator after the first point. -/
theorem acc1_first (c : Dev nD) (t : Fin cfg1.N) (hz : t.val = 0) :
    acc1 V c t.val t.isLt = k1_pay2 (iblk1 V c 0 t) (k1_pay1 (F := F)) := by
  obtain ⟨n, hn⟩ := t
  cases n with
  | zero => rfl
  | succ n => exact absurd hz (Nat.succ_ne_zero n)

/-- The accumulator after a later point, over what the point before left. -/
theorem acc1_later (c : Dev nD) (t : Fin cfg1.N) (hz : t.val ≠ 0) :
    acc1 V c t.val t.isLt = k1_pay2 (iblk1 V c 0 t) (acc1 V c (t.val - 1) (Nat.lt_of_le_of_lt (Nat.sub_le _ _) t.isLt)) := by
  obtain ⟨n, hn⟩ := t
  cases n with
  | zero => exact absurd rfl hz
  | succ n => rfl

/-- What the launch hands the region, opened: the other region's staging buffers, the accumulator at anything, the
    generator register at some state. -/
theorem PhiA1_split (c : Dev nD) :
    (Pipeline.ΦA spec1 c : sProp 𝕄) ⊢ iprop(others1 (F := F) c ∗ (∃ d, owns (c : Thread nD τ) accM fullShare d) ∗ (∃ r, prngReg c r)) := by
  unfold Pipeline.ΦA others1; rw [scopedRest1_eq]; simp only [accM, owns_whole]
  iintro ⟨⟨H0, H1, H2, H3, H4, H5, H6, H7, H8, H9, HS⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  iexact Hg

/-- And closed again. -/
theorem PhiA1_join (c : Dev nD) :
    iprop(others1 (F := F) c ∗ (∃ d, owns (c : Thread nD τ) accM fullShare d) ∗ (∃ r, prngReg c r)) ⊢ (Pipeline.ΦA spec1 c : sProp 𝕄) := by
  unfold Pipeline.ΦA others1; rw [scopedRest1_eq]; simp only [accM, owns_whole]
  iintro ⟨⟨H0, H1, H2, H3, H4, H5, H6, H7, H8, H9⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point: the input's memref holds its row block; the grid position says which case the point is in; the
    invariant hands the body the accumulator at what the point before left (at anything at the first point) and takes it
    back at this point's contents; an idle output block is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (st1_0 t) fullShare ((dat1 V c).after 0 t) from by
    unfold Dat.leavesExact; rw [liveAt1_0 t], after1_0]
  by_cases h0 : t.val % 16 = 0
  · have h1 : ¬t.val % 16 = 15 := by omega
    have hz : t.val = 0 := by omega
    rw [Dat.leavesExact_idle (dat1 V c) 1 t (idleAt1_1 t (fun h => h1 ((hcond1_1 t).mp h))) (noFlush1_1 t (fun h => h1 ((hcond1_1 t).mp h)))]
    rw [PhiS1_castSucc V c t, PhiS1_zero V c _ _ hz, acc1_first V c t hz]
    iintro ⟨HΦ, Ho, ⟨%d0, H0⟩, ⟨%d1, H1⟩⟩
    ihave HQ := (PhiA1_split (F := F) c) $$ HΦ
    icases HQ with ⟨Hoth, HS, Hg⟩
    iapply (run_first c Set.univ (grid1.coords t) _ _ _ _ _ _ ((hcond1_0 t).mpr h0) (fun h => h1 ((hcond1_1 t).mp h)) (iblk1 V c 0 t) _ _)
    isplitl [H0]; · iexact H0
    isplitl [H1]; · iexact H1
    isplitl [HS]; · iexact HS
    iintro ⟨H0, H1, HS⟩
    isplitl [Hoth HS Hg]
    · isplitl [Hoth]; · iexact Hoth
      isplitl [HS]; · iexact HS
      iexact Hg
    isplitl [Ho]; · iexact Ho
    isplitl [H0]; · iexact H0
    iexists _; iexact H1
  · have hz : t.val ≠ 0 := fun e => h0 (by rw [e])
    by_cases h1 : t.val % 16 = 15
    · rw [show (dat1 V c).leavesExact 1 t = owns (c : Thread nD τ) (st1_1 t) fullShare ((dat1 V c).after 1 t) from by
        unfold Dat.leavesExact; rw [liveAt1_1 t ((hcond1_1 t).mpr h1)], after1_1]
      rw [PhiS1_castSucc V c t, PhiS1_pos V c _ _ hz, acc1_later V c t hz]
      iintro ⟨⟨Hoth, HS, Hg⟩, Ho, ⟨%d0, H0⟩, ⟨%d1, H1⟩⟩
      iapply (run_last c Set.univ (grid1.coords t) _ _ _ _ _ _ (fun h => h0 ((hcond1_0 t).mp h)) ((hcond1_1 t).mpr h1) (iblk1 V c 0 t) _ _)
      isplitl [H0]; · iexact H0
      isplitl [H1]; · iexists _; iexact H1
      isplitl [HS]; · iexact HS
      iintro ⟨H0, H1, HS⟩
      isplitl [Hoth HS Hg]
      · isplitl [Hoth]; · iexact Hoth
        isplitl [HS]; · iexact HS
        iexact Hg
      isplitl [Ho]; · iexact Ho
      isplitl [H0]; · iexact H0
      iexact H1
    · rw [Dat.leavesExact_idle (dat1 V c) 1 t (idleAt1_1 t (fun h => h1 ((hcond1_1 t).mp h))) (noFlush1_1 t (fun h => h1 ((hcond1_1 t).mp h)))]
      rw [PhiS1_castSucc V c t, PhiS1_pos V c _ _ hz, acc1_later V c t hz]
      iintro ⟨⟨Hoth, HS, Hg⟩, Ho, ⟨%d0, H0⟩, ⟨%d1, H1⟩⟩
      iapply (run_middle c Set.univ (grid1.coords t) _ _ _ _ _ _ (fun h => h0 ((hcond1_0 t).mp h)) (fun h => h1 ((hcond1_1 t).mp h)) (iblk1 V c 0 t) _ _ _)
      isplitl [H0]; · iexact H0
      isplitl [H1]; · iexact H1
      isplitl [HS]; · iexact HS
      iintro ⟨H0, H1, HS⟩
      isplitl [Hoth HS Hg]
      · isplitl [Hoth]; · iexact Hoth
        isplitl [HS]; · iexact HS
        iexact Hg
      isplitl [Ho]; · iexact Ho
      isplitl [H0]; · iexact H0
      iexists _; iexact H1

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega)]
  refine .trans ?_ (PhiA1_join (F := F) c)
  iintro ⟨Hoth, HS, Hg⟩
  isplitl [Hoth]; · iexact Hoth
  isplitl [HS]; · iexists _; iexact HS
  iexact Hg

end Cert.Kernel.SumAll

end
-- ==== Proof.K.Run.lean ====
/-
  The whole program's run: @main is the elementwise region, then the sum region, then one host reshape of the 1 × 1 sum
  to a scalar. The buffer contents at each boundary are a fold from the launch memory: a region leaves its windows'
  arrays at what its write-backs fold to and every other buffer as entered; the reshape writes only its result. Each
  region is entered from "every unscoped buffer at the boundary's contents, the generator register at some state, nothing
  owed" and left in the same form, so the segments chain. The run ends with EVERY unscoped buffer at the last
  boundary's contents, from which the frame (the argument as launched) and each result's value are read.
  Generic in the float instance.
-/
import proofs.«111182_j73667279061061_1_alg».proof.Proof.K.Elementwise
import proofs.«111182_j73667279061061_1_alg».proof.Proof.K.SumAll
import proofs.«111182_j73667279061061_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.Elementwise Cert.Kernel.SumAll

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the elementwise region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After the elementwise region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the sum region: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape: the end of @main. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The elementwise region over the thread state: entered from every unscoped buffer at `W0`, left at `W1`. Its arrays are
    split out of the unscoped buffers and put back at the exit contents; the generator register goes into the invariant
    and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The sum region over the thread state: entered from every unscoped buffer at `W1`, left at `W2`. The invariant takes
    the generator register and the scoped buffers the region does not stage, carries the accumulator through the points,
    and gives them back with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m ρ) c)
    unfold Pipeline.ΦA
    iintro ⟨Hp, -, Hr⟩
    isplitl [Hr]; · iexact Hr
    iexact Hp
  hout c := by
    rw [Pipeline.ownSems0_none]
    refine (hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state every unscoped buffer holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The argument ends as launched -/

/-- The reshape writes only the scalar result: every other buffer ends as the sum region left it. -/
theorem W3_keep (c : Dev nD) (b : Ref sig .tc) (hb : b ∉ hostOps2_W) :
    W3 m ρ c (Proc.devRef .tc b) = W2 m ρ c (Proc.devRef .tc b) :=
  StableHlo.after_of_writes_sub hostOps2 _ hostOps2_writes hb

/-- The argument array as the sum region finds it is the launch contents: the elementwise region only reads it. -/
theorem V1_arg (c : Dev nD) : V1 m ρ c main_arg0 = m ((c : Thread nD τ).loc main_arg0) :=
  calc V1 m ρ c main_arg0
    _ = (dat0 (V0 m ρ) c).arrAt 0 cfg0.N := W1_arr m ρ c 0
    _ = (dat0 (V0 m ρ) c).A 0 := (dat0 (V0 m ρ) c).arrAt_in 0 rfl _
    _ = m ((c : Thread nD τ).loc main_arg0) := A_eq0 (V0 m ρ) c 0

/-- The argument array ends as launched: it is an input of both regions and nothing writes it. -/
theorem end_arg (c : Dev nD) : W3 m ρ c (Proc.devRef .tc main_arg0) = m ((c : Thread nD τ).loc main_arg0) :=
  calc W3 m ρ c (Proc.devRef .tc main_arg0)
    _ = W2 m ρ c (Proc.devRef .tc main_arg0) := W3_keep m ρ c main_arg0 (by decide)
    _ = (dat1 (V1 m ρ) c).arrAt 0 cfg1.N := W2_arr m ρ c 0
    _ = (dat1 (V1 m ρ) c).A 0 := (dat1 (V1 m ρ) c).arrAt_in 0 rfl _
    _ = V1 m ρ c main_arg0 := A_eq1 (V1 m ρ) c 0
    _ = m ((c : Thread nD τ).loc main_arg0) := V1_arg m ρ c

/-- THE FRAME: every weakly fair execution of @main terminates, nothing faulting, and the argument array ends holding its
    launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (end_arg m ρ c)) (run_all m ρ)

end Cert.Kernel.Run

end
-- ==== Proof.KI.Elementwise.lean ====
/-
  The first kernel region: the elementwise kernel on a 32 × 4 grid of 128 × 4096 blocks. At each grid point the body
  loads the input block once and stores into each of the four output blocks one pointwise function of it
  (x + 1, x − 1, x · 2, x / 2), every store covering its whole block. Stated at a parameter `V`, the contents of
  the core's buffers when the region is entered: what each output's staging buffer holds after the body, the body's
  triple, the proof data of the pipeline and its body obligation at every grid point. Generic in the float instance.
-/
import proofs.«111182_j73667279061061_1_alg».proof.Proof.Gen.KernelIdeal.Launch
import proofs.«111182_j73667279061061_1_alg».proof.Proof.Gen.KernelIdeal.Skeleton
import proofs.«111182_j73667279061061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Elementwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point and never cut, so its current staging buffer holds the array's block
    at that point, for any proof data whose input array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every load and store of the body goes through: the whole 128 × 4096 block. -/
abbrev whole0 : Rect S128x4096 := Rect.unit (s := S128x4096) ![0, 0] S128x4096.size inb_S128x4096_S128x4096_0_0

/-- What the body leaves in output window 1's staging buffer, from the input block: its one store read back. -/
def out0_1 (x0 : Vec F S128x4096 .f32) : Vec F S128x4096 .f32 :=
  View.canon [⟨whole0, k0_pay1 (View.ld x0 whole0)⟩]

/-- What the body leaves in output window 2's staging buffer, from the input block: its one store read back. -/
def out0_2 (x0 : Vec F S128x4096 .f32) : Vec F S128x4096 .f32 :=
  View.canon [⟨whole0, k0_pay2 (View.ld x0 whole0)⟩]

/-- What the body leaves in output window 3's staging buffer, from the input block: its one store read back. -/
def out0_3 (x0 : Vec F S128x4096 .f32) : Vec F S128x4096 .f32 :=
  View.canon [⟨whole0, k0_pay3 (View.ld x0 whole0)⟩]

/-- What the body leaves in output window 4's staging buffer, from the input block: its one store read back. -/
def out0_4 (x0 : Vec F S128x4096 .f32) : Vec F S128x4096 .f32 :=
  View.canon [⟨whole0, k0_pay4 (View.ld x0 whole0)⟩]

/-- A single store through the whole-block rectangle covers the block. -/
theorem cover0 (p0 : Vec F S128x4096 .f32) (y : S128x4096.Idx) :
    ∃ pc ∈ ([⟨whole0, p0⟩] : List (View.Piece (Elt F) S128x4096 .f32)), y ∈ pc.1.set :=
  View.cover_of_tiled [⟨whole0, p0⟩] S128x4096.size (by rfl) y

set_option maxHeartbeats 4000000 in
/-- The body on whole staging memrefs: with the input's buffer at `x0` and the four outputs' at anything, it runs to
    the continuation with the input's buffer unchanged and each output's at its pointwise function of `x0`. -/
theorem sound_kernel0 (c : Dev nD) (E : Set ℕ) (i : grid0.Coords)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x4096 .f32) (harg5 : arg5.IsWhole)
    (arg6 : Memref sig .tc .vmem S128x4096 .f32) (harg6 : arg6.IsWhole)
    (x0 : Vec F S128x4096 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare (out0_1 x0) ∗ owns (c : Thread nD τ) arg4 fullShare (out0_2 x0)
            ∗ owns (c : Thread nD τ) arg5 fullShare (out0_3 x0) ∗ owns (c : Thread nD τ) arg6 fullShare (out0_4 x0)) -∗ K ⟨⟩))
      ⊢ wp frame (wpE (defs₀ (F := F)) Variants.none c none) E (cc0__elementwise_kernel i arg2 harg2 arg3 harg3 arg4 harg4 arg5 harg5 arg6 harg6) K := by
  simp only [cc0__elementwise_kernel_eq_skeleton]; unfold cc0__elementwise_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of the elementwise pipeline on core `c`: the arrays as the region finds them; after the body at point
    `t` the input's buffer still at its block and each output's at its function of that block; the invariant is the
    scoped buffers the region does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input's memref holds its block, so the body's triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Elementwise

end
-- ==== Proof.KI.SumAllDefs.lean ====
/-
  The second kernel region: the full-tensor sum on a grid of 16 points, one 256 × 16384 row block of the input per
  point. A 1 × 1 scratch accumulator is carried between the points: the first point resets it to zero, every point
  adds its block's sum (the lanes of each row first, then the 256 row sums) into it, and the last point copies it into
  the 1 × 1 output block, which is written back once, at the end. Stated at a parameter `V`, the contents of the core's
  buffers when the region is entered: the accumulator after each point by recursion on the point, the region's
  invariant carrying it, the proof data of the pipeline and its body obligation. Generic in the float instance.
-/
import proofs.«111182_j73667279061061_1_alg».proof.Proof.Gen.KernelIdeal.Launch
import proofs.«111182_j73667279061061_1_alg».proof.Proof.Gen.KernelIdeal.Skeleton
import proofs.«111182_j73667279061061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SumAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window is fetched at every point and never cut, so its current staging buffer holds the array's row block
    at that point, for any proof data whose input array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scratch accumulator, a whole 1 × 1 buffer of the core's vector memory. -/
abbrev accM : Memref sig .tc .vmem S1x1 .f32 := Memref.whole cc1_scratch0

/-- THE ACCUMULATION. What the scratch accumulator holds after the body at position `n`: at the first point the block's
    sum added to the zero just stored, afterwards the block's sum added to what the point before left. -/
def acc1 (c : Dev nD) : (n : ℕ) → n < cfg1.N → Vec F S1x1 .f32
  | 0, hn => k1_pay2 (iblk1 V c 0 ⟨0, hn⟩) (k1_pay1 (F := F))
  | n + 1, hn => k1_pay2 (iblk1 V c 0 ⟨n + 1, hn⟩) (acc1 c n (Nat.lt_of_succ_lt hn))

theorem acc1_zero (c : Dev nD) (hn : 0 < cfg1.N) : acc1 V c 0 hn = k1_pay2 (iblk1 V c 0 ⟨0, hn⟩) (k1_pay1 (F := F)) := rfl
theorem acc1_succ (c : Dev nD) (n : ℕ) (hn : n + 1 < cfg1.N) :
    acc1 V c (n + 1) hn = k1_pay2 (iblk1 V c 0 ⟨n + 1, hn⟩) (acc1 V c n (Nat.lt_of_succ_lt hn)) := rfl

/-- The staging buffers of the OTHER region's windows: scoped buffers this region never touches, each whole at some
    contents. They ride in the region's invariant beside the accumulator. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region's invariant before position `n`: before the first point whatever the launch hands the region (every
    scoped buffer it does not stage at anything, the generator register at some state); afterwards the same with the
    accumulator at what the point before left in it. -/
def PhiS1 (c : Dev nD) : (n : ℕ) → n ≤ cfg1.N → sProp 𝕄
  | 0, _ => Pipeline.ΦA spec1 c
  | n + 1, hn => iprop(others1 (F := F) c ∗ owns (c : Thread nD τ) accM fullShare (acc1 V c n hn) ∗ (∃ r, prngReg c r))

/-- The proof data of the sum pipeline on core `c`: the arrays as the region finds them; after the body at point `t` the
    input's buffer still at its row block and the output's at the accumulator after `t` (read only at the last point,
    the one point that stores into the output and writes it back); the invariant carries the accumulator; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d

end Cert.KernelIdeal.SumAll

end
-- ==== Proof.KI.SumAll.lean ====
/-
  The sum region's body, case by case, and its obligation at every grid point. The body's two branches depend only on
  the grid coordinate: the first (reset the accumulator) is taken at the first point only, the second (copy the
  accumulator into the output block) at the last point only. So a point is in one of three cases: the first point, a
  middle point, the last point. In each the accumulator ends at the block's sum added to what it held (at the first
  point: to the zero just stored), and at the last point the output block ends at the same value.
-/
import proofs.«111182_j73667279061061_1_alg».proof.Proof.KI.SumAllDefs
import Idealize.ShloMosaic.Lib.Pipeline.Value

set_option maxRecDepth 16384

noncomputable section

namespace Cert.KernelIdeal.SumAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The branch conditions, decided over the grid -/

/-- The first branch's condition (the grid coordinate is zero), as the body computes it. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition (the grid coordinate is the last one). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The input window is never idle; the output window is idle, and not written back, exactly where the second branch is
    not taken. -/
theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

/-! ## Whole-block accesses -/

theorem hz2 : (![0, 0] : Fin 2 → ℕ) = fun _ => 0 := by funext a; fin_cases a <;> rfl

/-- A rectangle at offset zero of the shape's own size holds every index. -/
theorem mem_unit_zero {S : Shape} {off : Fin S.rank → ℕ} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- The one rectangle every access of the accumulator and of the output block goes through: the whole 1 × 1 block. -/
abbrev whole1 : Rect S1x1 := Rect.unit (s := S1x1) ![0, 0] S1x1.size inb_S1x1_S1x1_0_0

/-- A list of stores whose last is through the whole block covers the block. -/
theorem cover1 (p0 : Vec F S1x1 .f32) (L : List (View.Piece (Elt F) S1x1 .f32)) (y : S1x1.Idx) :
    ∃ pc ∈ ((⟨whole1, p0⟩ : View.Piece (Elt F) S1x1 .f32) :: L), y ∈ pc.1.set :=
  ⟨_, List.mem_cons_self, mem_unit_zero hz2 inb_S1x1_S1x1_0_0 y⟩

/-! ## The body's triple, case by case -/

set_option maxHeartbeats 4000000 in
/-- THE FIRST POINT (first branch taken, second not): the accumulator, found at anything, is reset to zero and ends at the
    block's sum added to that zero; the output block is handed back as found. -/
theorem run_first (c : Dev nD) (E : Set ℕ) (i : grid1.Coords) (arg1 : Memref sig .tc .vmem S256x16384 .f32) (harg1 : arg1.IsWhole)
    (arg2 : Memref sig .tc .vmem S1x1 .f32) (harg2 : arg2.IsWhole) (arg3 : Memref sig .tc .vmem S1x1 .f32) (harg3 : arg3.IsWhole)
    (hc0 : cond1_0 i) (hc1 : ¬cond1_1 i)
    (x0 : Vec F S256x16384 .f32) (xi : Vec F S1x1 .f32) (K : PUnit → sProp 𝕄) :
    iprop(owns (c : Thread nD τ) arg1 fullShare x0 ∗ owns (c : Thread nD τ) arg2 fullShare xi ∗ (∃ d, owns (c : Thread nD τ) arg3 fullShare d)
        ∗ (iprop(owns (c : Thread nD τ) arg1 fullShare x0 ∗ owns (c : Thread nD τ) arg2 fullShare xi ∗ owns (c : Thread nD τ) arg3 fullShare (k1_pay2 x0 (k1_pay1 (F := F)))) -∗ K ⟨⟩))
      ⊢ wp frame (wpE (defs₀ (F := F)) Variants.none c none) E (cc1__sum_kernel i arg1 harg1 arg2 harg2 arg3 harg3) K := by
  simp only [cc1__sum_kernel_eq_skeleton]; unfold cc1__sum_kernel_skel
  unfold owns
  iintro ⟨⟨%f0, %hf0, H0⟩, ⟨%f1, %hf1, H1⟩, ⟨%ds, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  sl_unfold_words
  rw [View.read_writes_eq_canon _ _ _ (cover1 _ _)]
  rw [View.canon_cons_unit_zero (S := S1x1) hz2]
  simp only [View.readAt_eq_ld, harg1.read_unread, View.ld_unit_zero (S := S256x16384) hz2, View.readCov_unit_zero (S := S1x1) _ hz2]

set_option maxHeartbeats 4000000 in
/-- A MIDDLE POINT (neither branch taken): the accumulator, found at `xs`, ends at the block's sum added to `xs`; the output
    block is handed back as found. -/
theorem run_middle (c : Dev nD) (E : Set ℕ) (i : grid1.Coords) (arg1 : Memref sig .tc .vmem S256x16384 .f32) (harg1 : arg1.IsWhole)
    (arg2 : Memref sig .tc .vmem S1x1 .f32) (harg2 : arg2.IsWhole) (arg3 : Memref sig .tc .vmem S1x1 .f32) (harg3 : arg3.IsWhole)
    (hc0 : ¬cond1_0 i) (hc1 : ¬cond1_1 i)
    (x0 : Vec F S256x16384 .f32) (xi : Vec F S1x1 .f32) (xs : Vec F S1x1 .f32) (K : PUnit → sProp 𝕄) :
    iprop(owns (c : Thread nD τ) arg1 fullShare x0 ∗ owns (c : Thread nD τ) arg2 fullShare xi ∗ owns (c : Thread nD τ) arg3 fullShare xs
        ∗ (iprop(owns (c : Thread nD τ) arg1 fullShare x0 ∗ owns (c : Thread nD τ) arg2 fullShare xi ∗ owns (c : Thread nD τ) arg3 fullShare (k1_pay2 x0 xs)) -∗ K ⟨⟩))
      ⊢ wp frame (wpE (defs₀ (F := F)) Variants.none c none) E (cc1__sum_kernel i arg1 harg1 arg2 harg2 arg3 harg3) K := by
  simp only [cc1__sum_kernel_eq_skeleton]; unfold cc1__sum_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  sl_unfold_words
  rw [View.read_writes_eq_canon _ _ _ (cover1 _ _)]
  rw [View.canon_cons_unit_zero (S := S1x1) hz2]
  simp only [View.readAt_eq_ld, harg1.read_unread, harg3.read_unread, View.ld_unit_zero (S := S256x16384) hz2, View.ld_unit_zero (S := S1x1) hz2]

set_option maxHeartbeats 4000000 in
/-- THE LAST POINT (second branch taken, first not): the accumulator, found at `xs`, ends at the block's sum added to `xs`, and
    the output block, found at anything, ends at the same value. -/
theorem run_last (c : Dev nD) (E : Set ℕ) (i : grid1.Coords) (arg1 : Memref sig .tc .vmem S256x16384 .f32) (harg1 : arg1.IsWhole)
    (arg2 : Memref sig .tc .vmem S1x1 .f32) (harg2 : arg2.IsWhole) (arg3 : Memref sig .tc .vmem S1x1 .f32) (harg3 : arg3.IsWhole)
    (hc0 : ¬cond1_0 i) (hc1 : cond1_1 i)
    (x0 : Vec F S256x16384 .f32) (xs : Vec F S1x1 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k1_pay2 x0 xs) ∗ owns (c : Thread nD τ) arg3 fullShare (k1_pay2 x0 xs)) -∗ K ⟨⟩))
      ⊢ wp frame (wpE (defs₀ (F := F)) Variants.none c none) E (cc1__sum_kernel i arg1 harg1 arg2 harg2 arg3 harg3) K := by
  simp only [cc1__sum_kernel_eq_skeleton]; unfold cc1__sum_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (cover1 _ _)]
    rw [View.canon_cons_unit_zero (S := S1x1) hz2]
    simp only [View.readAt_eq_ld, harg1.read_unread, harg3.read_unread, View.ld_unit_zero (S := S256x16384) hz2, View.ld_unit_zero (S := S1x1) hz2, View.readCov_unit_zero (S := S1x1) _ hz2]
  iexists _; isplitr
  swap; · iexact HS0
  ipureintro
  sl_unfold_words
  rw [View.read_writes_eq_canon _ _ _ (cover1 _ _)]
  rw [View.canon_cons_unit_zero (S := S1x1) hz2]
  simp only [View.readAt_eq_ld, harg1.read_unread, harg3.read_unread, View.ld_unit_zero (S := S256x16384) hz2, View.ld_unit_zero (S := S1x1) hz2]

/-! ## The invariant and the accumulator, point by point -/

variable (V : (c : Dev nD) → (b : Ref sig .tc) → Buf (Elt F) ((c : Thread nD τ).loc b))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) accM fullShare (acc1 V c n hn) ∗ (∃ r, prngReg c r)) := rfl

theorem PhiS1_pos (c : Dev nD) (n : ℕ) (h : n ≤ cfg1.N) (hz : n ≠ 0) :
    PhiS1 V c n h = iprop(others1 (F := F) c ∗ owns (c : Thread nD τ) accM fullShare (acc1 V c (n - 1) (by omega)) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The accumulator after the first point. -/
theorem acc1_first (c : Dev nD) (t : Fin cfg1.N) (hz : t.val = 0) :
    acc1 V c t.val t.isLt = k1_pay2 (iblk1 V c 0 t) (k1_pay1 (F := F)) := by
  obtain ⟨n, hn⟩ := t
  cases n with
  | zero => rfl
  | succ n => exact absurd hz (Nat.succ_ne_zero n)

/-- The accumulator after a later point, over what the point before left. -/
theorem acc1_later (c : Dev nD) (t : Fin cfg1.N) (hz : t.val ≠ 0) :
    acc1 V c t.val t.isLt = k1_pay2 (iblk1 V c 0 t) (acc1 V c (t.val - 1) (Nat.lt_of_le_of_lt (Nat.sub_le _ _) t.isLt)) := by
  obtain ⟨n, hn⟩ := t
  cases n with
  | zero => exact absurd rfl hz
  | succ n => rfl

/-- What the launch hands the region, opened: the other region's staging buffers, the accumulator at anything, the
    generator register at some state. -/
theorem PhiA1_split (c : Dev nD) :
    (Pipeline.ΦA spec1 c : sProp 𝕄) ⊢ iprop(others1 (F := F) c ∗ (∃ d, owns (c : Thread nD τ) accM fullShare d) ∗ (∃ r, prngReg c r)) := by
  unfold Pipeline.ΦA others1; rw [scopedRest1_eq]; simp only [accM, owns_whole]
  iintro ⟨⟨H0, H1, H2, H3, H4, H5, H6, H7, H8, H9, HS⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  iexact Hg

/-- And closed again. -/
theorem PhiA1_join (c : Dev nD) :
    iprop(others1 (F := F) c ∗ (∃ d, owns (c : Thread nD τ) accM fullShare d) ∗ (∃ r, prngReg c r)) ⊢ (Pipeline.ΦA spec1 c : sProp 𝕄) := by
  unfold Pipeline.ΦA others1; rw [scopedRest1_eq]; simp only [accM, owns_whole]
  iintro ⟨⟨H0, H1, H2, H3, H4, H5, H6, H7, H8, H9⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point: the input's memref holds its row block; the grid position says which case the point is in; the
    invariant hands the body the accumulator at what the point before left (at anything at the first point) and takes it
    back at this point's contents; an idle output block is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (st1_0 t) fullShare ((dat1 V c).after 0 t) from by
    unfold Dat.leavesExact; rw [liveAt1_0 t], after1_0]
  by_cases h0 : t.val % 16 = 0
  · have h1 : ¬t.val % 16 = 15 := by omega
    have hz : t.val = 0 := by omega
    rw [Dat.leavesExact_idle (dat1 V c) 1 t (idleAt1_1 t (fun h => h1 ((hcond1_1 t).mp h))) (noFlush1_1 t (fun h => h1 ((hcond1_1 t).mp h)))]
    rw [PhiS1_castSucc V c t, PhiS1_zero V c _ _ hz, acc1_first V c t hz]
    iintro ⟨HΦ, Ho, ⟨%d0, H0⟩, ⟨%d1, H1⟩⟩
    ihave HQ := (PhiA1_split (F := F) c) $$ HΦ
    icases HQ with ⟨Hoth, HS, Hg⟩
    iapply (run_first c Set.univ (grid1.coords t) _ _ _ _ _ _ ((hcond1_0 t).mpr h0) (fun h => h1 ((hcond1_1 t).mp h)) (iblk1 V c 0 t) _ _)
    isplitl [H0]; · iexact H0
    isplitl [H1]; · iexact H1
    isplitl [HS]; · iexact HS
    iintro ⟨H0, H1, HS⟩
    isplitl [Hoth HS Hg]
    · isplitl [Hoth]; · iexact Hoth
      isplitl [HS]; · iexact HS
      iexact Hg
    isplitl [Ho]; · iexact Ho
    isplitl [H0]; · iexact H0
    iexists _; iexact H1
  · have hz : t.val ≠ 0 := fun e => h0 (by rw [e])
    by_cases h1 : t.val % 16 = 15
    · rw [show (dat1 V c).leavesExact 1 t = owns (c : Thread nD τ) (st1_1 t) fullShare ((dat1 V c).after 1 t) from by
        unfold Dat.leavesExact; rw [liveAt1_1 t ((hcond1_1 t).mpr h1)], after1_1]
      rw [PhiS1_castSucc V c t, PhiS1_pos V c _ _ hz, acc1_later V c t hz]
      iintro ⟨⟨Hoth, HS, Hg⟩, Ho, ⟨%d0, H0⟩, ⟨%d1, H1⟩⟩
      iapply (run_last c Set.univ (grid1.coords t) _ _ _ _ _ _ (fun h => h0 ((hcond1_0 t).mp h)) ((hcond1_1 t).mpr h1) (iblk1 V c 0 t) _ _)
      isplitl [H0]; · iexact H0
      isplitl [H1]; · iexists _; iexact H1
      isplitl [HS]; · iexact HS
      iintro ⟨H0, H1, HS⟩
      isplitl [Hoth HS Hg]
      · isplitl [Hoth]; · iexact Hoth
        isplitl [HS]; · iexact HS
        iexact Hg
      isplitl [Ho]; · iexact Ho
      isplitl [H0]; · iexact H0
      iexact H1
    · rw [Dat.leavesExact_idle (dat1 V c) 1 t (idleAt1_1 t (fun h => h1 ((hcond1_1 t).mp h))) (noFlush1_1 t (fun h => h1 ((hcond1_1 t).mp h)))]
      rw [PhiS1_castSucc V c t, PhiS1_pos V c _ _ hz, acc1_later V c t hz]
      iintro ⟨⟨Hoth, HS, Hg⟩, Ho, ⟨%d0, H0⟩, ⟨%d1, H1⟩⟩
      iapply (run_middle c Set.univ (grid1.coords t) _ _ _ _ _ _ (fun h => h0 ((hcond1_0 t).mp h)) (fun h => h1 ((hcond1_1 t).mp h)) (iblk1 V c 0 t) _ _ _)
      isplitl [H0]; · iexact H0
      isplitl [H1]; · iexact H1
      isplitl [HS]; · iexact HS
      iintro ⟨H0, H1, HS⟩
      isplitl [Hoth HS Hg]
      · isplitl [Hoth]; · iexact Hoth
        isplitl [HS]; · iexact HS
        iexact Hg
      isplitl [Ho]; · iexact Ho
      isplitl [H0]; · iexact H0
      iexists _; iexact H1

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega)]
  refine .trans ?_ (PhiA1_join (F := F) c)
  iintro ⟨Hoth, HS, Hg⟩
  isplitl [Hoth]; · iexact Hoth
  isplitl [HS]; · iexists _; iexact HS
  iexact Hg

end Cert.KernelIdeal.SumAll

end
-- ==== Proof.KI.Run.lean ====
/-
  The whole program's run: @main is the elementwise region, then the sum region, then one host reshape of the 1 × 1 sum
  to a scalar. The buffer contents at each boundary are a fold from the launch memory: a region leaves its windows'
  arrays at what its write-backs fold to and every other buffer as entered; the reshape writes only its result. Each
  region is entered from "every unscoped buffer at the boundary's contents, the generator register at some state, nothing
  owed" and left in the same form, so the segments chain. The run ends with EVERY unscoped buffer at the last
  boundary's contents, from which the frame (the argument as launched) and each result's value are read.
  Generic in the float instance.
-/
import proofs.«111182_j73667279061061_1_alg».proof.Proof.KI.Elementwise
import proofs.«111182_j73667279061061_1_alg».proof.Proof.KI.SumAll
import proofs.«111182_j73667279061061_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Elementwise Cert.KernelIdeal.SumAll

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the elementwise region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After the elementwise region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the sum region: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape: the end of @main. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The elementwise region over the thread state: entered from every unscoped buffer at `W0`, left at `W1`. Its arrays are
    split out of the unscoped buffers and put back at the exit contents; the generator register goes into the invariant
    and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The sum region over the thread state: entered from every unscoped buffer at `W1`, left at `W2`. The invariant takes
    the generator register and the scoped buffers the region does not stage, carries the accumulator through the points,
    and gives them back with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m ρ) c)
    unfold Pipeline.ΦA
    iintro ⟨Hp, -, Hr⟩
    isplitl [Hr]; · iexact Hr
    iexact Hp
  hout c := by
    rw [Pipeline.ownSems0_none]
    refine (hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state every unscoped buffer holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The argument ends as launched -/

/-- The reshape writes only the scalar result: every other buffer ends as the sum region left it. -/
theorem W3_keep (c : Dev nD) (b : Ref sig .tc) (hb : b ∉ hostOps2_W) :
    W3 m ρ c (Proc.devRef .tc b) = W2 m ρ c (Proc.devRef .tc b) :=
  StableHlo.after_of_writes_sub hostOps2 _ hostOps2_writes hb

/-- The argument array as the sum region finds it is the launch contents: the elementwise region only reads it. -/
theorem V1_arg (c : Dev nD) : V1 m ρ c main_arg0 = m ((c : Thread nD τ).loc main_arg0) :=
  calc V1 m ρ c main_arg0
    _ = (dat0 (V0 m ρ) c).arrAt 0 cfg0.N := W1_arr m ρ c 0
    _ = (dat0 (V0 m ρ) c).A 0 := (dat0 (V0 m ρ) c).arrAt_in 0 rfl _
    _ = m ((c : Thread nD τ).loc main_arg0) := A_eq0 (V0 m ρ) c 0

/-- The argument array ends as launched: it is an input of both regions and nothing writes it. -/
theorem end_arg (c : Dev nD) : W3 m ρ c (Proc.devRef .tc main_arg0) = m ((c : Thread nD τ).loc main_arg0) :=
  calc W3 m ρ c (Proc.devRef .tc main_arg0)
    _ = W2 m ρ c (Proc.devRef .tc main_arg0) := W3_keep m ρ c main_arg0 (by decide)
    _ = (dat1 (V1 m ρ) c).arrAt 0 cfg1.N := W2_arr m ρ c 0
    _ = (dat1 (V1 m ρ) c).A 0 := (dat1 (V1 m ρ) c).arrAt_in 0 rfl _
    _ = V1 m ρ c main_arg0 := A_eq1 (V1 m ρ) c 0
    _ = m ((c : Thread nD τ).loc main_arg0) := V1_arg m ρ c

/-- THE FRAME: every weakly fair execution of @main terminates, nothing faulting, and the argument array ends holding its
    launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (end_arg m ρ c)) (run_all m ρ)

end Cert.KernelIdeal.Run

end
-- ==== Proof.KI.ElementwiseValue.lean ====
/-
  The elementwise region, read as values: after its 32 × 4 grid of 128 × 4096 blocks has run, each of the four output
  arrays holds ONE pointwise function of the input array (x + 1, x − 1, x · 2, x / 2), index by index. Every output window
  moves with the input window (same block index at every grid point), every point writes its block back, and the blocks
  tile the 4096 × 16384 array: the point covering row r, column q is (r / 128, q / 4096). Generic in the float instance.
-/
import proofs.«111182_j73667279061061_1_alg».proof.Proof.KI.Elementwise
import Idealize.ShloMosaic.Lib.Pipeline.Value

set_option maxRecDepth 16384

noncomputable section

namespace Cert.KernelIdeal.ElementwiseValue

open Idealize.ShloMosaic Idealize.ShloMosaic.TcCoe Idealize.SL.Sem
open Idealize.ShloMosaic.Pipeline (Dat Cfg Window)
open Cert.KernelIdeal Cert.KernelIdeal.Gen
open Cert.KernelIdeal.Elementwise

variable {F : FTy → Type} [FloatOps F]
variable (V : (c : Dev nD) → (b : Ref sig .tc) → Buf (Elt F) ((c : Thread nD τ).loc b))

/-- The whole-block rectangle's offsets are the zero offsets. -/
theorem zero_offsets : (![0, 0] : Fin 2 → Nat) = fun _ => 0 := funext fun a => by fin_cases a <;> rfl

/-! ## The four pointwise functions, on an array and on a block -/

/-- x + 1, index by index. -/
abbrev plusOne (a : S4096x16384.Idx → Elt F .f32) : S4096x16384.Idx → Elt F .f32 :=
  fun i => FloatOps.addf (a i) (FloatOps.ofBits .f32 0x3F800000#32)
/-- x − 1, index by index. -/
abbrev minusOne (a : S4096x16384.Idx → Elt F .f32) : S4096x16384.Idx → Elt F .f32 :=
  fun i => FloatOps.subf (a i) (FloatOps.ofBits .f32 0x3F800000#32)
/-- x · 2, index by index. -/
abbrev timesTwo (a : S4096x16384.Idx → Elt F .f32) : S4096x16384.Idx → Elt F .f32 :=
  fun i => FloatOps.mulf (a i) (FloatOps.ofBits .f32 0x40000000#32)
/-- x / 2, index by index. -/
abbrev overTwo (a : S4096x16384.Idx → Elt F .f32) : S4096x16384.Idx → Elt F .f32 :=
  fun i => FloatOps.divf (a i) (FloatOps.ofBits .f32 0x40000000#32)

/-- What the body leaves in output window 1's buffer is x + 1 of the input block, index by index. -/
theorem out0_1_eq (x0 : Vec F S128x4096 .f32) :
    out0_1 x0 = fun j => FloatOps.addf (x0 j) (FloatOps.ofBits .f32 0x3F800000#32) := by
  unfold out0_1
  rw [View.canon_unit_zero zero_offsets, View.ld_unit_zero (S := S128x4096) zero_offsets]
  rfl

/-- What the body leaves in output window 2's buffer is x − 1 of the input block, index by index. -/
theorem out0_2_eq (x0 : Vec F S128x4096 .f32) :
    out0_2 x0 = fun j => FloatOps.subf (x0 j) (FloatOps.ofBits .f32 0x3F800000#32) := by
  unfold out0_2
  rw [View.canon_unit_zero zero_offsets, View.ld_unit_zero (S := S128x4096) zero_offsets]
  rfl

/-- What the body leaves in output window 3's buffer is x · 2 of the input block, index by index. -/
theorem out0_3_eq (x0 : Vec F S128x4096 .f32) :
    out0_3 x0 = fun j => FloatOps.mulf (x0 j) (FloatOps.ofBits .f32 0x40000000#32) := by
  unfold out0_3
  rw [View.canon_unit_zero zero_offsets, View.ld_unit_zero (S := S128x4096) zero_offsets]
  rfl

/-- What the body leaves in output window 4's buffer is x / 2 of the input block, index by index. -/
theorem out0_4_eq (x0 : Vec F S128x4096 .f32) :
    out0_4 x0 = fun j => FloatOps.divf (x0 j) (FloatOps.ofBits .f32 0x40000000#32) := by
  unfold out0_4
  rw [View.canon_unit_zero zero_offsets, View.ld_unit_zero (S := S128x4096) zero_offsets]
  rfl

/-! ## The index maps over the grid -/

/-- The printed index maps, decided over the 128 grid points: point t is block (t / 4, t % 4) of every window. -/
theorem block_index : ∀ t : Fin cfg0.N,
    (win0_0.index t (0 : Fin 2) = t.val / 4 ∧ win0_0.index t (1 : Fin 2) = t.val % 4)
    ∧ (win0_1.index t (0 : Fin 2) = t.val / 4 ∧ win0_1.index t (1 : Fin 2) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4)
    ∧ (win0_4.index t (0 : Fin 2) = t.val / 4 ∧ win0_4.index t (1 : Fin 2) = t.val % 4) :=
  (by decide +kernel : ∀ t : Fin grid0.N, _)

/-! ## The point that holds an index -/

/-- The point whose blocks hold row r, column q of a 4096 × 16384 array: (r / 128, q / 4096), point 4 · (r / 128) + q / 4096. -/
def pointOf (i : S4096x16384.Idx) : Fin cfg0.N :=
  ⟨(i 0).val / 128 * 4 + (i 1).val / 4096, by
    have hN : cfg0.N = 128 := N_0
    have h0 : (i 0).val < 4096 := (i 0).isLt
    have h1 : (i 1).val < 16384 := (i 1).isLt
    rw [hN]; omega⟩

theorem pointOf_val (i : S4096x16384.Idx) : (pointOf i).val = (i 0).val / 128 * 4 + (i 1).val / 4096 := rfl

/-! ## Output window 1: x + 1 -/

/-- The input window's block at a point sits in the array where output window 1's does. -/
theorem emb_0_eq_1 (t : Fin cfg0.N) (j : S128x4096.Idx) :
    ((cfg0.win 0).blk t).view.emb j = ((cfg0.win 1).blk t).view.emb j := by
  obtain ⟨⟨a0, a1⟩, ⟨b0, b1⟩, -, -, -⟩ := block_index t
  funext a; apply Fin.ext
  match a with
  | ⟨0, _⟩ => show win0_0.index t (0 : Fin 2) * 128 + 1 * (j 0).val = win0_1.index t (0 : Fin 2) * 128 + 1 * (j 0).val; rw [a0, b0]
  | ⟨1, _⟩ => show win0_0.index t (1 : Fin 2) * 4096 + 1 * (j 1).val = win0_1.index t (1 : Fin 2) * 4096 + 1 * (j 1).val; rw [a1, b1]

/-- Point t writes back, to output array 1, block t of x + 1 of the input array. -/
theorem flushed1_eq (c : Dev nD) (t : Fin cfg0.N) :
    (dat0 V c).flushed 1 t = ((cfg0.win 1).blk t).view.read (Elt F) (plusOne (V c main_arg0)) := by
  show (cfg0.win 1).cut (grid0.coords t) ((dat0 V c).after 1 t) = _
  rw [after0_1, out0_1_eq]
  funext j
  show FloatOps.addf (V c main_arg0 (((cfg0.win 0).blk t).view.emb j)) (FloatOps.ofBits .f32 0x3F800000#32)
    = FloatOps.addf (V c main_arg0 (((cfg0.win 1).blk t).view.emb j)) (FloatOps.ofBits .f32 0x3F800000#32)
  rw [emb_0_eq_1 t j]

/-- An index of output array 1 is in point t's block iff each coordinate is in the block's range on its axis. -/
theorem mem_blk1 (t : Fin cfg0.N) (i : S4096x16384.Idx) :
    i ∈ ((cfg0.win 1).blk t).view.set ↔ ∀ a : Fin 2, win0_1.index t a * S128x4096.size a ≤ (i a).val ∧ (i a).val < win0_1.index t a * S128x4096.size a + S128x4096.size a := by
  show i ∈ ((View.whole main_v0_0).slice (win0_1.rect t)).set ↔ _
  rw [View.set_slice_whole, Rect.mem_set_unit]
  exact Iff.rfl

/-- Every index of output array 1 is in the block of the point that holds it, which writes back. -/
theorem cover1 (i : S4096x16384.Idx) :
    ∃ t : Fin cfg0.N, (cfg0.win 1).flush t = true ∧ i ∈ ((cfg0.win 1).blk t).view.set := by
  have h0 : (i 0).val < 4096 := (i 0).isLt
  have h1 : (i 1).val < 16384 := (i 1).isLt
  refine ⟨pointOf i, flush0_1 _, ?_⟩
  rw [mem_blk1]
  obtain ⟨-, ⟨b0, b1⟩, -, -, -⟩ := block_index (pointOf i)
  rw [pointOf_val] at b0 b1
  intro a
  match a with
  | ⟨0, _⟩ => show win0_1.index (pointOf i) (0 : Fin 2) * 128 ≤ (i 0).val ∧ (i 0).val < win0_1.index (pointOf i) (0 : Fin 2) * 128 + 128; omega
  | ⟨1, _⟩ => show win0_1.index (pointOf i) (1 : Fin 2) * 4096 ≤ (i 1).val ∧ (i 1).val < win0_1.index (pointOf i) (1 : Fin 2) * 4096 + 4096; omega

/-- Output array 1 after the region is x + 1 of the input array, index by index. -/
theorem final0_1 (c : Dev nD) :
    (dat0 V c).arrAt 1 cfg0.N = (fun i => FloatOps.addf (V c main_arg0 i) (FloatOps.ofBits .f32 0x3F800000#32) : S4096x16384.Idx → Elt F .f32) :=
  (dat0 V c).arrAt_eq_of_cover 1 (plusOne (V c main_arg0)) (fun t _ => flushed1_eq V c t) cover1

/-! ## Output window 2: x − 1 -/

/-- The input window's block at a point sits in the array where output window 2's does. -/
theorem emb_0_eq_2 (t : Fin cfg0.N) (j : S128x4096.Idx) :
    ((cfg0.win 0).blk t).view.emb j = ((cfg0.win 2).blk t).view.emb j := by
  obtain ⟨⟨a0, a1⟩, -, ⟨b0, b1⟩, -, -⟩ := block_index t
  funext a; apply Fin.ext
  match a with
  | ⟨0, _⟩ => show win0_0.index t (0 : Fin 2) * 128 + 1 * (j 0).val = win0_2.index t (0 : Fin 2) * 128 + 1 * (j 0).val; rw [a0, b0]
  | ⟨1, _⟩ => show win0_0.index t (1 : Fin 2) * 4096 + 1 * (j 1).val = win0_2.index t (1 : Fin 2) * 4096 + 1 * (j 1).val; rw [a1, b1]

/-- Point t writes back, to output array 2, block t of x − 1 of the input array. -/
theorem flushed2_eq (c : Dev nD) (t : Fin cfg0.N) :
    (dat0 V c).flushed 2 t = ((cfg0.win 2).blk t).view.read (Elt F) (minusOne (V c main_arg0)) := by
  show (cfg0.win 2).cut (grid0.coords t) ((dat0 V c).after 2 t) = _
  rw [after0_2, out0_2_eq]
  funext j
  show FloatOps.subf (V c main_arg0 (((cfg0.win 0).blk t).view.emb j)) (FloatOps.ofBits .f32 0x3F800000#32)
    = FloatOps.subf (V c main_arg0 (((cfg0.win 2).blk t).view.emb j)) (FloatOps.ofBits .f32 0x3F800000#32)
  rw [emb_0_eq_2 t j]

/-- An index of output array 2 is in point t's block iff each coordinate is in the block's range on its axis. -/
theorem mem_blk2 (t : Fin cfg0.N) (i : S4096x16384.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v0_1).slice (win0_2.rect t)).set ↔ _
  rw [View.set_slice_whole, Rect.mem_set_unit]
  exact Iff.rfl

/-- Every index of output array 2 is in the block of the point that holds it, which writes back. -/
theorem cover2 (i : S4096x16384.Idx) :
    ∃ t : Fin cfg0.N, (cfg0.win 2).flush t = true ∧ i ∈ ((cfg0.win 2).blk t).view.set := by
  have h0 : (i 0).val < 4096 := (i 0).isLt
  have h1 : (i 1).val < 16384 := (i 1).isLt
  refine ⟨pointOf i, flush0_2 _, ?_⟩
  rw [mem_blk2]
  obtain ⟨-, -, ⟨b0, b1⟩, -, -⟩ := block_index (pointOf i)
  rw [pointOf_val] at b0 b1
  intro a
  match a with
  | ⟨0, _⟩ => show win0_2.index (pointOf i) (0 : Fin 2) * 128 ≤ (i 0).val ∧ (i 0).val < win0_2.index (pointOf i) (0 : Fin 2) * 128 + 128; omega
  | ⟨1, _⟩ => show win0_2.index (pointOf i) (1 : Fin 2) * 4096 ≤ (i 1).val ∧ (i 1).val < win0_2.index (pointOf i) (1 : Fin 2) * 4096 + 4096; omega

/-- Output array 2 after the region is x − 1 of the input array, index by index. -/
theorem final0_2 (c : Dev nD) :
    (dat0 V c).arrAt 2 cfg0.N = (fun i => FloatOps.subf (V c main_arg0 i) (FloatOps.ofBits .f32 0x3F800000#32) : S4096x16384.Idx → Elt F .f32) :=
  (dat0 V c).arrAt_eq_of_cover 2 (minusOne (V c main_arg0)) (fun t _ => flushed2_eq V c t) cover2

/-! ## Output window 3: x · 2 -/

/-- The input window's block at a point sits in the array where output window 3's does. -/
theorem emb_0_eq_3 (t : Fin cfg0.N) (j : S128x4096.Idx) :
    ((cfg0.win 0).blk t).view.emb j = ((cfg0.win 3).blk t).view.emb j := by
  obtain ⟨⟨a0, a1⟩, -, -, ⟨b0, b1⟩, -⟩ := block_index t
  funext a; apply Fin.ext
  match a with
  | ⟨0, _⟩ => show win0_0.index t (0 : Fin 2) * 128 + 1 * (j 0).val = win0_3.index t (0 : Fin 2) * 128 + 1 * (j 0).val; rw [a0, b0]
  | ⟨1, _⟩ => show win0_0.index t (1 : Fin 2) * 4096 + 1 * (j 1).val = win0_3.index t (1 : Fin 2) * 4096 + 1 * (j 1).val; rw [a1, b1]

/-- Point t writes back, to output array 3, block t of x · 2 of the input array. -/
theorem flushed3_eq (c : Dev nD) (t : Fin cfg0.N) :
    (dat0 V c).flushed 3 t = ((cfg0.win 3).blk t).view.read (Elt F) (timesTwo (V c main_arg0)) := by
  show (cfg0.win 3).cut (grid0.coords t) ((dat0 V c).after 3 t) = _
  rw [after0_3, out0_3_eq]
  funext j
  show FloatOps.mulf (V c main_arg0 (((cfg0.win 0).blk t).view.emb j)) (FloatOps.ofBits .f32 0x40000000#32)
    = FloatOps.mulf (V c main_arg0 (((cfg0.win 3).blk t).view.emb j)) (FloatOps.ofBits .f32 0x40000000#32)
  rw [emb_0_eq_3 t j]

/-- An index of output array 3 is in point t's block iff each coordinate is in the block's range on its axis. -/
theorem mem_blk3 (t : Fin cfg0.N) (i : S4096x16384.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v0_2).slice (win0_3.rect t)).set ↔ _
  rw [View.set_slice_whole, Rect.mem_set_unit]
  exact Iff.rfl

/-- Every index of output array 3 is in the block of the point that holds it, which writes back. -/
theorem cover3 (i : S4096x16384.Idx) :
    ∃ t : Fin cfg0.N, (cfg0.win 3).flush t = true ∧ i ∈ ((cfg0.win 3).blk t).view.set := by
  have h0 : (i 0).val < 4096 := (i 0).isLt
  have h1 : (i 1).val < 16384 := (i 1).isLt
  refine ⟨pointOf i, flush0_3 _, ?_⟩
  rw [mem_blk3]
  obtain ⟨-, -, -, ⟨b0, b1⟩, -⟩ := block_index (pointOf i)
  rw [pointOf_val] at b0 b1
  intro a
  match a with
  | ⟨0, _⟩ => show win0_3.index (pointOf i) (0 : Fin 2) * 128 ≤ (i 0).val ∧ (i 0).val < win0_3.index (pointOf i) (0 : Fin 2) * 128 + 128; omega
  | ⟨1, _⟩ => show win0_3.index (pointOf i) (1 : Fin 2) * 4096 ≤ (i 1).val ∧ (i 1).val < win0_3.index (pointOf i) (1 : Fin 2) * 4096 + 4096; omega

/-- Output array 3 after the region is x · 2 of the input array, index by index. -/
theorem final0_3 (c : Dev nD) :
    (dat0 V c).arrAt 3 cfg0.N = (fun i => FloatOps.mulf (V c main_arg0 i) (FloatOps.ofBits .f32 0x40000000#32) : S4096x16384.Idx → Elt F .f32) :=
  (dat0 V c).arrAt_eq_of_cover 3 (timesTwo (V c main_arg0)) (fun t _ => flushed3_eq V c t) cover3

/-! ## Output window 4: x / 2 -/

/-- The input window's block at a point sits in the array where output window 4's does. -/
theorem emb_0_eq_4 (t : Fin cfg0.N) (j : S128x4096.Idx) :
    ((cfg0.win 0).blk t).view.emb j = ((cfg0.win 4).blk t).view.emb j := by
  obtain ⟨⟨a0, a1⟩, -, -, -, ⟨b0, b1⟩⟩ := block_index t
  funext a; apply Fin.ext
  match a with
  | ⟨0, _⟩ => show win0_0.index t (0 : Fin 2) * 128 + 1 * (j 0).val = win0_4.index t (0 : Fin 2) * 128 + 1 * (j 0).val; rw [a0, b0]
  | ⟨1, _⟩ => show win0_0.index t (1 : Fin 2) * 4096 + 1 * (j 1).val = win0_4.index t (1 : Fin 2) * 4096 + 1 * (j 1).val; rw [a1, b1]

/-- Point t writes back, to output array 4, block t of x / 2 of the input array. -/
theorem flushed4_eq (c : Dev nD) (t : Fin cfg0.N) :
    (dat0 V c).flushed 4 t = ((cfg0.win 4).blk t).view.read (Elt F) (overTwo (V c main_arg0)) := by
  show (cfg0.win 4).cut (grid0.coords t) ((dat0 V c).after 4 t) = _
  rw [after0_4, out0_4_eq]
  funext j
  show FloatOps.divf (V c main_arg0 (((cfg0.win 0).blk t).view.emb j)) (FloatOps.ofBits .f32 0x40000000#32)
    = FloatOps.divf (V c main_arg0 (((cfg0.win 4).blk t).view.emb j)) (FloatOps.ofBits .f32 0x40000000#32)
  rw [emb_0_eq_4 t j]

/-- An index of output array 4 is in point t's block iff each coordinate is in the block's range on its axis. -/
theorem mem_blk4 (t : Fin cfg0.N) (i : S4096x16384.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_3).slice (win0_4.rect t)).set ↔ _
  rw [View.set_slice_whole, Rect.mem_set_unit]
  exact Iff.rfl

/-- Every index of output array 4 is in the block of the point that holds it, which writes back. -/
theorem cover4 (i : S4096x16384.Idx) :
    ∃ t : Fin cfg0.N, (cfg0.win 4).flush t = true ∧ i ∈ ((cfg0.win 4).blk t).view.set := by
  have h0 : (i 0).val < 4096 := (i 0).isLt
  have h1 : (i 1).val < 16384 := (i 1).isLt
  refine ⟨pointOf i, flush0_4 _, ?_⟩
  rw [mem_blk4]
  obtain ⟨-, -, -, -, ⟨b0, b1⟩⟩ := block_index (pointOf i)
  rw [pointOf_val] at b0 b1
  intro a
  match a with
  | ⟨0, _⟩ => show win0_4.index (pointOf i) (0 : Fin 2) * 128 ≤ (i 0).val ∧ (i 0).val < win0_4.index (pointOf i) (0 : Fin 2) * 128 + 128; omega
  | ⟨1, _⟩ => show win0_4.index (pointOf i) (1 : Fin 2) * 4096 ≤ (i 1).val ∧ (i 1).val < win0_4.index (pointOf i) (1 : Fin 2) * 4096 + 4096; omega

/-- Output array 4 after the region is x / 2 of the input array, index by index. -/
theorem final0_4 (c : Dev nD) :
    (dat0 V c).arrAt 4 cfg0.N = (fun i => FloatOps.divf (V c main_arg0 i) (FloatOps.ofBits .f32 0x40000000#32) : S4096x16384.Idx → Elt F .f32) :=
  (dat0 V c).arrAt_eq_of_cover 4 (overTwo (V c main_arg0)) (fun t _ => flushed4_eq V c t) cover4

end Cert.KernelIdeal.ElementwiseValue

end
-- ==== Proof.KI.SumArray.lean ====
/-
  The sum region's output array after the run. The region's grid has 16 points; its output window is the whole 1 × 1
  array, at block index (0, 0) at every point, and it is written back once, at the last point (position 15). What is
  written back there is what the accumulator holds after that point, so the array ends holding exactly that value:
  the one write-back covers the array's single index, and a 1 × 1 array read through its one whole block is itself.
  Generic in the float instance.
-/
import proofs.«111182_j73667279061061_1_alg».proof.Proof.KI.SumAllDefs
import Idealize.ShloMosaic.Lib.Pipeline.Value

set_option maxRecDepth 16384

noncomputable section

namespace Cert.KernelIdeal.SumArray

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Position 15, the last point of the sum grid, lies below the grid's size. -/
theorem last_lt : 15 < cfg1.N := by rw [show cfg1.N = 16 from N_1]; decide

/-- The output window's block index is (0, 0) at every point, so the block's element offsets in the array vanish on
    both axes. -/
theorem off1_1 (t : Fin cfg1.N) : (fun a => win1_1.index t a * main_v1.ty.shape.size a) = fun _ => 0 := by
  funext a
  show cc1_transform_1 (grid1.coords t) a * main_v1.ty.shape.size a = 0
  unfold cc1_transform_1
  fin_cases a <;> rfl

/-- The one write-back. A point that writes the output block back is the last one; what it writes is the accumulator
    after that point, and this is the accumulator's value read through the block, because the block at zero offsets
    with the array's own sizes is the whole array. -/
theorem flushed1_1 (c : Dev nD) (t : Fin cfg1.N) (hf : (cfg1.win 1).flush t = true) :
    (SumAll.dat1 V c).flushed 1 t = ((cfg1.win 1).blk t).view.read (Elt F) (SumAll.acc1 V c 15 last_lt) := by
  have hN : cfg1.N = 16 := N_1
  have h15 : t.val = 15 := by
    have h := (flush1_1 t).mp hf
    have := t.isLt
    omega
  obtain rfl : t = ⟨15, last_lt⟩ := Fin.ext h15
  show (cfg1.win 1).cut (cfg1.grid.coords ⟨15, last_lt⟩) ((SumAll.dat1 V c).after 1 ⟨15, last_lt⟩) = _
  rw [SumAll.after1_1]
  exact (Memref.read_access_unit_zero (Elt F) main_v1 (off1_1 ⟨15, last_lt⟩)
    (fun a => by rw [congrFun (off1_1 ⟨15, last_lt⟩) a]; exact Nat.le_of_eq (Nat.zero_add _))
    (SumAll.acc1 V c 15 last_lt)).symm

/-- The last point's block covers the array: every index of the 1 × 1 array lies in it (offset zero, the array's own
    extent, on each axis). -/
theorem cover1_1 (c : Dev nD) (i : ((cfg1.win 1).arr.view.loc (c.tc : Thread nD τ)).2.ty.Idx) :
    ∃ t : Fin cfg1.N, (cfg1.win 1).flush t = true ∧ i ∈ ((cfg1.win 1).blk t).view.set := by
  refine ⟨⟨15, last_lt⟩, (flush1_1 _).mpr rfl, ?_⟩
  show i ∈ ((View.whole main_v1).slice (win1_1.rect ⟨15, last_lt⟩)).set
  rw [View.set_slice_whole, Rect.mem_set_unit]
  intro a
  have h0 : win1_1.index ⟨15, last_lt⟩ a * win1_1.size a = 0 := congrFun (off1_1 ⟨15, last_lt⟩) a
  have hi : (i a : Nat) < win1_1.xsize (grid1.coords ⟨15, last_lt⟩) a := (i a).isLt
  rw [h0, Nat.zero_add]
  exact ⟨Nat.zero_le _, hi⟩

/-- THE OUTPUT ARRAY AFTER THE SUM REGION: the 1 × 1 array holds what the accumulator held after the last grid
    point. -/
theorem final1_1 (c : Dev nD) :
    (SumAll.dat1 V c).arrAt 1 cfg1.N = SumAll.acc1 V c 15 (by rw [show cfg1.N = 16 from N_1]; decide) :=
  (SumAll.dat1 V c).arrAt_eq_of_cover 1 (SumAll.acc1 V c 15 last_lt) (flushed1_1 V c) (cover1_1 c)

end Cert.KernelIdeal.SumArray

end
-- ==== Proof.KI.Results.lean ====
/-
  Each result array at the end of @main, read off the last boundary's contents. The four elementwise outputs are written
  by the first region only: the sum region stages none of them and the reshape writes only its own result, so each ends
  at what the first region's write-backs fold to. The scalar result is the reshape of the sum region's 1 × 1 output,
  which ends at the accumulator after the last grid point. The argument is an input of both regions and is written by
  nothing. Generic in the float instance.
-/
import proofs.«111182_j73667279061061_1_alg».proof.Proof.KI.Run
import proofs.«111182_j73667279061061_1_alg».proof.Proof.KI.ElementwiseValue
import proofs.«111182_j73667279061061_1_alg».proof.Proof.KI.SumArray

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Elementwise Cert.KernelIdeal.SumAll Cert.KernelIdeal.Run

variable {F : FTy → Type} [FloatOps F]

variable (m : (ℓ : Loc nD τ sig) → Buf (Elt F) ℓ) (ρ : Dev nD → PrngReg)

/-- The first elementwise output ends at x + 1 of the argument, index by index. -/
theorem end_v0_0 (c : Dev nD) : W3 m ρ c (Proc.devRef .tc main_v0_0)
    = (fun i => FloatOps.addf (m ((c : Thread nD τ).loc main_arg0) i) (FloatOps.ofBits .f32 0x3F800000#32) : S4096x16384.Idx → Elt F .f32) :=
  calc W3 m ρ c (Proc.devRef .tc main_v0_0)
    _ = W2 m ρ c (Proc.devRef .tc main_v0_0) := W3_keep m ρ c main_v0_0 (by decide)
    _ = W1 m ρ c (Proc.devRef .tc main_v0_0) := W2_of_ne m ρ c main_v0_0 (by decide)
    _ = (dat0 (V0 m ρ) c).arrAt 1 cfg0.N := W1_arr m ρ c 1
    _ = _ := ElementwiseValue.final0_1 (V0 m ρ) c

/-- The second ends at x − 1. -/
theorem end_v0_1 (c : Dev nD) : W3 m ρ c (Proc.devRef .tc main_v0_1)
    = (fun i => FloatOps.subf (m ((c : Thread nD τ).loc main_arg0) i) (FloatOps.ofBits .f32 0x3F800000#32) : S4096x16384.Idx → Elt F .f32) :=
  calc W3 m ρ c (Proc.devRef .tc main_v0_1)
    _ = W2 m ρ c (Proc.devRef .tc main_v0_1) := W3_keep m ρ c main_v0_1 (by decide)
    _ = W1 m ρ c (Proc.devRef .tc main_v0_1) := W2_of_ne m ρ c main_v0_1 (by decide)
    _ = (dat0 (V0 m ρ) c).arrAt 2 cfg0.N := W1_arr m ρ c 2
    _ = _ := ElementwiseValue.final0_2 (V0 m ρ) c

/-- The third ends at x · 2. -/
theorem end_v0_2 (c : Dev nD) : W3 m ρ c (Proc.devRef .tc main_v0_2)
    = (fun i => FloatOps.mulf (m ((c : Thread nD τ).loc main_arg0) i) (FloatOps.ofBits .f32 0x40000000#32) : S4096x16384.Idx → Elt F .f32) :=
  calc W3 m ρ c (Proc.devRef .tc main_v0_2)
    _ = W2 m ρ c (Proc.devRef .tc main_v0_2) := W3_keep m ρ c main_v0_2 (by decide)
    _ = W1 m ρ c (Proc.devRef .tc main_v0_2) := W2_of_ne m ρ c main_v0_2 (by decide)
    _ = (dat0 (V0 m ρ) c).arrAt 3 cfg0.N := W1_arr m ρ c 3
    _ = _ := ElementwiseValue.final0_3 (V0 m ρ) c

/-- The fourth ends at x / 2. -/
theorem end_v0_3 (c : Dev nD) : W3 m ρ c (Proc.devRef .tc main_v0_3)
    = (fun i => FloatOps.divf (m ((c : Thread nD τ).loc main_arg0) i) (FloatOps.ofBits .f32 0x40000000#32) : S4096x16384.Idx → Elt F .f32) :=
  calc W3 m ρ c (Proc.devRef .tc main_v0_3)
    _ = W2 m ρ c (Proc.devRef .tc main_v0_3) := W3_keep m ρ c main_v0_3 (by decide)
    _ = W1 m ρ c (Proc.devRef .tc main_v0_3) := W2_of_ne m ρ c main_v0_3 (by decide)
    _ = (dat0 (V0 m ρ) c).arrAt 4 cfg0.N := W1_arr m ρ c 4
    _ = _ := ElementwiseValue.final0_4 (V0 m ρ) c

/-- The sum region's 1 × 1 output as the reshape finds it: the accumulator after the last grid point. -/
theorem W2_v1 (c : Dev nD) : W2 m ρ c (Proc.devRef .tc main_v1) = acc1 (V1 m ρ) c 15 SumArray.last_lt :=
  (W2_arr m ρ c 1).trans (SumArray.final1_1 (V1 m ρ) c)

/-- The scalar result is the reshape of that 1 × 1 array. -/
theorem end_v2 (c : Dev nD) : W3 m ρ c (Proc.devRef .tc main_v2)
    = shapeCast S_ (acc1 (V1 m ρ) c 15 SumArray.last_lt) shapeCasts_S1x1_S_ := by
  rw [← W2_v1 m ρ c]
  show StableHlo.after hostOps2 (W2 m ρ c) (Proc.devRef .tc main_v2) = _
  after_results
  rfl

/-- THE RESULTS. Every weakly fair execution of @main terminates, nothing faulting, with each result array at its value of
    the argument's launch contents and the argument unchanged. -/
theorem run_results : θ_run defs (onTc (τ := τ) (main (F := F))) ⟨m, fun _ => 0, ρ⟩ (fun r => ∀ c : Dev nD,
      r.2.mem ((c.tc : Thread nD τ).loc main_v0_0)
        = (fun i => FloatOps.addf (m ((c : Thread nD τ).loc main_arg0) i) (FloatOps.ofBits .f32 0x3F800000#32) : S4096x16384.Idx → Elt F .f32)
      ∧ r.2.mem ((c.tc : Thread nD τ).loc main_v0_1)
        = (fun i => FloatOps.subf (m ((c : Thread nD τ).loc main_arg0) i) (FloatOps.ofBits .f32 0x3F800000#32) : S4096x16384.Idx → Elt F .f32)
      ∧ r.2.mem ((c.tc : Thread nD τ).loc main_v0_2)
        = (fun i => FloatOps.mulf (m ((c : Thread nD τ).loc main_arg0) i) (FloatOps.ofBits .f32 0x40000000#32) : S4096x16384.Idx → Elt F .f32)
      ∧ r.2.mem ((c.tc : Thread nD τ).loc main_v0_3)
        = (fun i => FloatOps.divf (m ((c : Thread nD τ).loc main_arg0) i) (FloatOps.ofBits .f32 0x40000000#32) : S4096x16384.Idx → Elt F .f32)
      ∧ r.2.mem ((c.tc : Thread nD τ).loc main_v2) = shapeCast S_ (acc1 (V1 m ρ) c 15 SumArray.last_lt) shapeCasts_S1x1_S_
      ∧ r.2.mem ((c.tc : Thread nD τ).loc main_arg0) = m ((c.tc : Thread nD τ).loc main_arg0)) :=
  (θ_run defs _ _).mono (fun _ h c =>
    ⟨(h c _ (mem_uc main_v0_0 (by decide))).trans (end_v0_0 m ρ c),
     (h c _ (mem_uc main_v0_1 (by decide))).trans (end_v0_1 m ρ c),
     (h c _ (mem_uc main_v0_2 (by decide))).trans (end_v0_2 m ρ c),
     (h c _ (mem_uc main_v0_3 (by decide))).trans (end_v0_3 m ρ c),
     (h c _ (mem_uc main_v2 (by decide))).trans (end_v2 m ρ c),
     (h c _ (mem_uc main_arg0 (by decide))).trans (end_arg m ρ c)⟩) (run_all m ρ)

end Cert.KernelIdeal.Results

end
-- ==== Proof.KI.SumTotal.lean ====
/-
  The second region's accumulator after the last grid point holds the sum of ALL entries of the input array, at the
  ideal values (the extended reals, every operation exact).

  One point's step read at the accumulator's one index: the accumulator plus the sum, over the block's 256 rows, of
  the sum over the row's 16384 lanes (both reductions start from the zero word, which is the extended real 0; the
  shape casts between them move no value). By induction on the point the accumulator after point n is the sum, over
  the points up to n, of the block sums. The block at point t is rows 256·t … 256·t + 255 of the array. The extended
  reals are a commutative additive monoid, so the triple sum over (point, row in block, lane) regroups into the sum
  over the array's index set through the bijection (t, r) ↦ 256·t + r of Fin 16 × Fin 256 with Fin 4096.
-/
import proofs.«111182_j73667279061061_1_alg».proof.Proof.KI.SumAllDefs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.SumTotal

open Idealize.ShloMosaic Idealize.ShloMosaic.TcCoe Idealize.SL.Sem
open Idealize.ShloMosaic.Pipeline (Dat Cfg Window)
open Idealize.ShloMosaic.ValueIdx
open Cert.KernelIdeal Cert.KernelIdeal.Gen

open scoped BigOperators

/-! ## One point's step at the accumulator's index -/

/-- A vector `[a]` cast to the column `[a, 1]` reads, at `(i, u)`, the operand at `i`: both sit at row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum: the reduction of a 256 × 16384 block along its lanes reads, at row `r`, the sum of the row. -/
theorem laneSum_apply (x : FVec Ideal S256x16384 .f32) (h : S256x16384.Reduces [1] S256) (hφ : FKind.Formats .f32)
    (hacc : (0x00000000#32 : BitVec 32) = FKind.add.neutral .f32 hφ) (r : Fin 256) :
    multiReduction (F := Ideal) .add [1] S256 x 0x00000000#32 h hφ hacc (ix1 r) = ∑ q : Fin 16384, x (ix2 r q) := by
  refine (Ideal.multiReduction_add_single x 0x00000000#32 h hφ hacc (ix1 r)).trans ?_
  show ∑ q : Fin 16384, x (h.lift (ix1 r) q) = _
  refine Finset.sum_congr rfl fun q _ => congrArg x ?_
  funext c
  match c with
  | ⟨0, _⟩ => rfl
  | ⟨1, _⟩ => rfl

/-- The row sum: the reduction of a 256 × 1 column along its rows reads, at its one index, the sum of the column. -/
theorem rowSum_apply (y : FVec Ideal S256x1 .f32) (h : S256x1.Reduces [0] S1) (hφ : FKind.Formats .f32)
    (hacc : (0x00000000#32 : BitVec 32) = FKind.add.neutral .f32 hφ) (u : Fin 1) :
    multiReduction (F := Ideal) .add [0] S1 y 0x00000000#32 h hφ hacc (ix1 u) = ∑ r : Fin 256, y (ix2 r u) := by
  refine (Ideal.multiReduction_add_single y 0x00000000#32 h hφ hacc (ix1 u)).trans ?_
  show ∑ r : Fin 256, y (h.lift (ix1 u) r) = _
  refine Finset.sum_congr rfl fun r _ => congrArg y ?_
  funext c
  match c with
  | ⟨0, _⟩ => rfl
  | ⟨1, _⟩ => rfl

/-- A block's total: its rows' lane sums added over the rows. -/
def blockSum (x : Vec Ideal S256x16384 .f32) : EReal := ∑ r : Fin 256, ∑ q : Fin 16384, x (ix2 r q)

/-- ONE POINT'S STEP: the accumulator plus the block's total. -/
theorem pay2_apply (x : Vec Ideal S256x16384 .f32) (a : Vec Ideal S1x1 .f32) (i : S1x1.Idx) :
    k1_pay2 (F := Ideal) x a i = a i + blockSum x := by
  obtain ⟨u, v, rfl⟩ : ∃ (u : Fin 1) (v : Fin 1), i = ix2 u v := ⟨i 0, i 1, eq_ix2 i⟩
  unfold k1_pay2
  dsimp only
  rw [shapeCast_self, addf_apply]
  refine congrArg (a (ix2 u v) + ·) ?_
  refine (shapeCast_a_1a_apply _ _ u v).trans ?_
  refine (rowSum_apply _ _ _ _ v).trans ?_
  unfold blockSum
  refine Finset.sum_congr rfl fun r _ => ?_
  refine (shapeCast_a_a1_apply _ _ r v).trans ?_
  exact laneSum_apply x _ _ _ r

/-- The zero the first point stores: the broadcast zero word, the extended real 0. -/
theorem pay1_apply (i : S1x1.Idx) : (k1_pay1 (F := Ideal)) i = 0 := by
  unfold k1_pay1
  rw [shapeCast_self, broadcast_apply]
  exact Ideal.ofBits_zero_f32

variable (V : (c : Dev nD) → (b : Ref sig .tc) → Buf (Elt Ideal) ((c : Thread nD τ).loc b))

/-- The input array as the region finds it on core `c`, read as a function on its index set into the extended reals. -/
abbrev inArr (c : Dev nD) : S4096x16384.Idx → EReal := V c main_arg0

/-! ## The accumulator after point n: the block totals of the points up to n -/

/-- By induction on the point: the first point adds its block's total to the zero just stored, each later point adds
    its block's total to what the point before left. -/
theorem acc1_eq_sum (c : Dev nD) : ∀ (n : ℕ) (hn : n < cfg1.N) (i : S1x1.Idx),
    SumAll.acc1 V c n hn i
      = ∑ t : Fin (n + 1), blockSum (SumAll.iblk1 V c 0 ⟨t.val, Nat.lt_of_le_of_lt (Nat.le_of_lt_succ t.isLt) hn⟩)
  | 0, hn, i => by
    rw [SumAll.acc1_zero]
    refine (pay2_apply _ _ i).trans ?_
    rw [pay1_apply, zero_add, Fin.sum_univ_castSucc, Fin.sum_univ_zero, zero_add]
    rfl
  | n + 1, hn, i => by
    rw [SumAll.acc1_succ]
    refine (pay2_apply _ _ i).trans ?_
    rw [acc1_eq_sum c n (Nat.lt_of_succ_lt hn) i, Fin.sum_univ_castSucc (n := n + 1)]
    rfl

/-! ## A block is 256 consecutive rows of the array -/

/-- Window 0's index map at point t: block row t, block column 0. -/
theorem idx1_0 : ∀ t : Fin cfg1.N, win1_0.index t (0 : Fin 2) = t.val ∧ win1_0.index t (1 : Fin 2) = 0 :=
  (by decide +kernel : ∀ t : Fin grid1.N, _)

/-- The block at point t, at (r, q), is the array at (256·t + r, q): a block's coordinate is the block index times the
    block's size plus the coordinate inside the block. -/
theorem iblk1_apply (c : Dev nD) (t : Fin cfg1.N) (x : S256x16384.Idx) (k : S4096x16384.Idx)
    (hk0 : (k 0).val = 256 * t.val + (x 0).val) (hk1 : (k 1).val = (x 1).val) :
    (SumAll.iblk1 V c 0 t : Vec Ideal S256x16384 .f32) x = inArr V c k := by
  have hi := idx1_0 t
  unfold SumAll.iblk1
  rw [View.read_apply]
  show inArr V c _ = inArr V c k
  congr 1
  funext a
  apply Fin.ext
  match a with
  | ⟨0, _⟩ => show win1_0.index t 0 * 256 + 1 * (x 0).val = (k 0).val; rw [hi.1, hk0]; omega
  | ⟨1, _⟩ => show win1_0.index t 1 * 16384 + 1 * (x 1).val = (k 1).val; rw [hi.2, hk1]; omega

/-- Row r of block t is row 256·t + r of the array. -/
def rowEquiv : Fin 16 × Fin 256 ≃ Fin 4096 where
  toFun x := ⟨256 * x.1.val + x.2.val, by have := x.1.isLt; have := x.2.isLt; omega⟩
  invFun p := (⟨p.val / 256, by have := p.isLt; omega⟩, ⟨p.val % 256, by omega⟩)
  left_inv x := by
    have h1 := x.1.isLt
    have h2 := x.2.isLt
    refine Prod.ext (Fin.ext ?_) (Fin.ext ?_)
    · show (256 * x.1.val + x.2.val) / 256 = x.1.val; omega
    · show (256 * x.1.val + x.2.val) % 256 = x.2.val; omega
  right_inv p := by
    refine Fin.ext ?_
    show 256 * (p.val / 256) + p.val % 256 = p.val; omega

theorem rowEquiv_val (t : Fin 16) (r : Fin 256) : (rowEquiv (t, r)).val = 256 * t.val + r.val := rfl

/-- A block's total in terms of the array. -/
theorem blockSum_iblk1 (c : Dev nD) (t : Fin 16) (ht : t.val < cfg1.N) :
    blockSum (SumAll.iblk1 V c 0 ⟨t.val, ht⟩)
      = ∑ r : Fin 256, ∑ q : Fin 16384, inArr V c (ix2 (rowEquiv (t, r)) q) := by
  unfold blockSum
  refine Finset.sum_congr rfl fun r _ => Finset.sum_congr rfl fun q _ => ?_
  exact iblk1_apply V c ⟨t.val, ht⟩ (ix2 r q) (ix2 (rowEquiv (t, r)) q) (rowEquiv_val t r) rfl

/-! ## The regrouping: (point, row in block, lane) against the array's index set -/

/-- The sum over the array's index set is the sum over the points of the sums over the block's rows of the lane sums:
    the index set is rows × lanes, and the rows are the pairs (point, row in block). -/
theorem sum_rows (A : (⟨2, ![4096, 16384]⟩ : Shape).Idx → EReal) :
    ∑ j, A j = ∑ t : Fin 16, ∑ r : Fin 256, ∑ q : Fin 16384, A (ix2 (rowEquiv (t, r)) q) := by
  rw [sum_idx2, ← Equiv.sum_comp rowEquiv, Fintype.sum_prod_type]

/-! ## The total -/

/-- THE ACCUMULATOR AFTER THE LAST POINT is the sum of all entries of the input array. -/
theorem acc1_total (c : Dev nD) (h : 15 < cfg1.N) (i : S1x1.Idx) :
    SumAll.acc1 (F := Ideal) V c 15 h i = ∑ j : S4096x16384.Idx, inArr V c j := by
  rw [acc1_eq_sum V c 15 h i]
  refine Eq.trans ?_ (sum_rows (inArr V c)).symm
  refine Finset.sum_congr rfl fun t _ => ?_
  exact blockSum_iblk1 V c t _

/-- The same against any function `A` that agrees with the input array's contents. -/
theorem acc1_total_of (c : Dev nD) (h : 15 < cfg1.N) (i : S1x1.Idx) (A : S4096x16384.Idx → EReal)
    (hA : ∀ j, inArr V c j = A j) : SumAll.acc1 (F := Ideal) V c 15 h i = ∑ j : S4096x16384.Idx, A j :=
  (acc1_total V c h i).trans (Finset.sum_congr rfl fun j _ => hA j)

end Cert.KernelIdeal.SumTotal

end
-- ==== Proof.KI.Values.lean ====
/-
  The two idealized programs compute the same five results. At the ideal instance floats are extended reals and every
  operation is exact. Index by index the four elementwise results are x + 1, x − 1, x · 2 and x / 2 on both sides: the
  kernel's vector division and the host's division are one function, and both sides use the same literals. The scalar
  result is, on the kernel's side, the accumulator after the last grid point reshaped to a scalar, which is the sum of
  all entries of the argument regrouped by row blocks, rows and lanes; on the reference's side it is zero plus the
  sum of all entries. Addition of extended reals is commutative and associative and zero is its unit, so the two agree
  for every input: no finiteness is used.
-/
import proofs.«111182_j73667279061061_1_alg».proof.Proof.KI.Results
import proofs.«111182_j73667279061061_1_alg».proof.Proof.KI.SumTotal
import proofs.«111182_j73667279061061_1_alg».proof.Proof.Gen.ReferenceIdeal.Read
import Idealize.ShloMosaic.PureOps.Ideal.Laws
import Idealize.ShloMosaic.Lib.Pipeline.Value

set_option maxRecDepth 16384

noncomputable section

namespace Cert.Values

open Idealize.ShloMosaic Idealize.ShloMosaic.TcCoe Idealize.SL.Sem

/-! ## The kernel's scalar result -/

section Kernel

open Cert.KernelIdeal Cert.KernelIdeal.Gen Cert.KernelIdeal.Run Cert.KernelIdeal.SumAll

variable (m : (ℓ : Loc nD τ sig) → Buf (Elt Ideal) ℓ) (ρ : Dev nD → PrngReg)

/-- The argument array at launch, as a function from its indices to the extended reals. -/
abbrev argArr (c : Dev nD) : S4096x16384.Idx → EReal := m ((c.tc : Thread nD τ).loc main_arg0)

/-- The accumulator after the last grid point, reshaped to a scalar, is the sum of all entries of the argument. -/
theorem scalar_eq (c : Dev nD) (h : 15 < cfg1.N) :
    shapeCast S_ (acc1 (F := Ideal) (V1 m ρ) c 15 h) shapeCasts_S1x1_S_
      = fun _ => ∑ j : S4096x16384.Idx, argArr m c j := by
  funext j
  have e1 : S1x1.numel = 1 := Shape.numel_eq_one (by intro a; fin_cases a <;> rfl)
  have e0 : S_.numel = 1 := Shape.numel_eq_one (fun a => a.elim0)
  have k : S1x1.Idx := fun a => ⟨0, by fin_cases a <;> decide⟩
  have hk : (S1x1.rowMajor k).val = (S_.rowMajor j).val := by
    have h1 : (S1x1.rowMajor k).val < 1 := lt_of_lt_of_eq (S1x1.rowMajor k).isLt e1
    have h0 : (S_.rowMajor j).val < 1 := lt_of_lt_of_eq (S_.rowMajor j).isLt e0
    omega
  refine (shapeCast_apply _ shapeCasts_S1x1_S_ j k hk).trans ?_
  exact SumTotal.acc1_total_of (V1 m ρ) c h k (argArr m c) (fun i => congrFun (V1_arg m ρ c) i)

/-- The scalar result: the sum of all entries of the argument, at the scalar shape's one index. -/
def total (c : Dev nD) : FVec Ideal S_ .f32 := fun _ => ∑ j : S4096x16384.Idx, argArr m c j

open Cert.KernelIdeal.Results in
/-- The idealized kernel's run with every result as one function of the argument's launch contents. -/
theorem run_values : θ_run defs (onTc (τ := τ) (main (F := Ideal))) ⟨m, fun _ => 0, ρ⟩ (fun r => ∀ c : Dev nD,
      r.2.mem ((c.tc : Thread nD τ).loc main_v0_0)
        = (fun i => FloatOps.addf (F := Ideal) (m ((c : Thread nD τ).loc main_arg0) i) (FloatOps.ofBits .f32 0x3F800000#32) : S4096x16384.Idx → Elt Ideal .f32)
      ∧ r.2.mem ((c.tc : Thread nD τ).loc main_v0_1)
        = (fun i => FloatOps.subf (F := Ideal) (m ((c : Thread nD τ).loc main_arg0) i) (FloatOps.ofBits .f32 0x3F800000#32) : S4096x16384.Idx → Elt Ideal .f32)
      ∧ r.2.mem ((c.tc : Thread nD τ).loc main_v0_2)
        = (fun i => FloatOps.mulf (F := Ideal) (m ((c : Thread nD τ).loc main_arg0) i) (FloatOps.ofBits .f32 0x40000000#32) : S4096x16384.Idx → Elt Ideal .f32)
      ∧ r.2.mem ((c.tc : Thread nD τ).loc main_v0_3)
        = (fun i => FloatOps.divf (F := Ideal) (m ((c : Thread nD τ).loc main_arg0) i) (FloatOps.ofBits .f32 0x40000000#32) : S4096x16384.Idx → Elt Ideal .f32)
      ∧ r.2.mem ((c.tc : Thread nD τ).loc main_v2) = total m c
      ∧ r.2.mem ((c.tc : Thread nD τ).loc main_arg0) = m ((c.tc : Thread nD τ).loc main_arg0)) :=
  (θ_run defs _ _).mono (fun _ h c => by
    obtain ⟨h0, h1, h2, h3, h4, harg⟩ := h c
    exact ⟨h0, h1, h2, h3, h4.trans (scalar_eq m ρ c _), harg⟩) (run_results (F := Ideal) m ρ)

end Kernel

/-! ## The reference's results, index by index -/

section Reference

open Cert.ReferenceIdeal Cert.ReferenceIdeal.Gen Cert.ReferenceIdeal.Read

theorem ref_plus (x : FVec Ideal S4096x16384 .f32) :
    addf (F := Ideal) x (broadcastInDim S4096x16384 ![] bcast_S_S4096x16384 (constant (F := Ideal) S_ .f32 0x3F800000#32))
      = fun i => FloatOps.addf (x i) (FloatOps.ofBits .f32 0x3F800000#32) := by
  funext i
  rw [val_main_v1_eq, val_main_v1_apply, val_main_v0_apply, val_main_cst_apply]

theorem ref_minus (x : FVec Ideal S4096x16384 .f32) :
    subf (F := Ideal) x (broadcastInDim S4096x16384 ![] bcast_S_S4096x16384 (constant (F := Ideal) S_ .f32 0x3F800000#32))
      = fun i => FloatOps.subf (x i) (FloatOps.ofBits .f32 0x3F800000#32) := by
  funext i
  rw [val_main_v3_eq, val_main_v3_apply, val_main_v2_apply, val_main_cst_0_apply]

theorem ref_times (x : FVec Ideal S4096x16384 .f32) :
    mulf (F := Ideal) x (broadcastInDim S4096x16384 ![] bcast_S_S4096x16384 (constant (F := Ideal) S_ .f32 0x40000000#32))
      = fun i => FloatOps.mulf (x i) (FloatOps.ofBits .f32 0x40000000#32) := by
  funext i
  rw [val_main_v5_eq, val_main_v5_apply, val_main_v4_apply, val_main_cst_1_apply]

/-- The host's division and the kernel's vector division are one function on the extended reals. -/
theorem ref_over (x : FVec Ideal S4096x16384 .f32) :
    Host.divf (F := Ideal) x (broadcastInDim S4096x16384 ![] bcast_S_S4096x16384 (constant (F := Ideal) S_ .f32 0x40000000#32))
      = fun i => FloatOps.divf (x i) (FloatOps.ofBits .f32 0x40000000#32) := by
  funext i
  rw [val_main_v7_eq, val_main_v7_apply, val_main_v6_apply, val_main_cst_2_apply]
  rfl

/-- The host's sum over both axes starts from the zero word, which is the real zero, the unit of addition. -/
theorem ref_total (x : FVec Ideal S4096x16384 .f32) :
    Host.reduceAdd (F := Ideal) x (constant (F := Ideal) S_ .f32 0x00000000#32) reducesTo_S4096x16384_S_d0_1 h_S_
      = fun _ => ∑ j : S4096x16384.Idx, x j := by
  funext i
  rw [val_main_v8_eq, val_main_v8_apply, val_main_cst_3_apply]
  show Ideal.ofBits .f32 0x00000000#32 + _ = _
  rw [Ideal.ofBits_zero_f32, zero_add]

end Reference

end Cert.Values

end
-- ==== Proof.lean ====
/-
  The certificate's claims. The kernel is two pipelined regions and a reshape: an elementwise region writing x + 1,
  x − 1, x · 2 and x / 2 block by block, and a sum region accumulating the row blocks' sums in a scratch carried across
  its sixteen grid points; the reference computes the same four arrays and the sum of all entries on the host.
  Frames: each kernel program's run is the run of its three segments, ending with every unscoped buffer at the last
  boundary's contents, of which the argument's are its launch contents; the reference's frame is its run with the
  results dropped. The idealization rewrote nothing, so there is nothing to preserve. Values, at the ideal instance:
  the four elementwise results agree index by index (the same literals; one division on the extended reals), and
  the kernel's accumulated sum is the reference's sum regrouped, equal because addition of extended reals is
  commutative and associative with unit zero.
-/
import proofs.«111182_j73667279061061_1_alg».proof.Defs
import proofs.«111182_j73667279061061_1_alg».proof.Proof.Gen.Kernel
import proofs.«111182_j73667279061061_1_alg».proof.Proof.Gen.KernelIdeal
import proofs.«111182_j73667279061061_1_alg».proof.Proof.Gen.ReferenceIdeal
import proofs.«111182_j73667279061061_1_alg».proof.Proof.Gen.Pre_finite_inputs
import proofs.«111182_j73667279061061_1_alg».proof.Proof.Gen.ReferenceIdeal.Run
import proofs.«111182_j73667279061061_1_alg».proof.Proof.Gen.ReferenceIdeal.Read
import proofs.«111182_j73667279061061_1_alg».proof.Proof.K.Run
import proofs.«111182_j73667279061061_1_alg».proof.Proof.KI.Run
import proofs.«111182_j73667279061061_1_alg».proof.Proof.KI.Results
import proofs.«111182_j73667279061061_1_alg».proof.Proof.KI.Values
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2.2.2.2.2) (Cert.ReferenceIdeal.Value.run (F := Ideal) m ρ)

theorem preserves : Cert.preserves_Kernel_KernelIdeal := trivial

/-- At the ideal instance both programs end with the same five results of arguments that agree. -/
theorem algebraic : Cert.algebraic_KernelIdeal_ReferenceIdeal := by
  intro m ρ m' ρ' _ hagree
  refine ⟨_, _, _, _, _, Cert.Values.run_values m ρ, ?_⟩
  · refine (θ_run Cert.ReferenceIdeal.defs _ _).mono (fun _ h c => ?_) (Cert.ReferenceIdeal.Value.run (F := Ideal) m' ρ')
    obtain ⟨h1, h3, h5, h7, h8, harg⟩ := h c
    refine ⟨h1.trans ?_, h3.trans ?_, h5.trans ?_, h7.trans ?_, h8.trans ?_, harg⟩
    · rw [hagree c]; exact Cert.Values.ref_plus _
    · rw [hagree c]; exact Cert.Values.ref_minus _
    · rw [hagree c]; exact Cert.Values.ref_times _
    · rw [hagree c]; exact Cert.Values.ref_over _
    · rw [hagree c]; exact Cert.Values.ref_total _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
